-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_arg6 : FVec F S128 .f32) (main_arg7 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) (main_arg6 : FVec F S128 .f32) (main_arg7 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S128x256 : Shape := ⟨2, ![128, 256]⟩
abbrev S256 : Shape := ⟨1, ![256]⟩
abbrev S100000x256 : Shape := ⟨2, ![100000, 256]⟩
abbrev S5000x128 : Shape := ⟨2, ![5000, 128]⟩
abbrev S5000x256 : Shape := ⟨2, ![5000, 256]⟩
abbrev S1x256 : Shape := ⟨2, ![1, 256]⟩
abbrev S1700000x128 : Shape := ⟨2, ![1700000, 128]⟩
abbrev S1x128 : Shape := ⟨2, ![1, 128]⟩
abbrev S5000 : Shape := ⟨1, ![5000]⟩
abbrev S5000x1 : Shape := ⟨2, ![5000, 1]⟩

abbrev nBuf : Space → Nat
  | .hbm => 72
  | .vmem => 15
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S128x256, .f32⟩
  | .hbm, ⟨49, _⟩ => ⟨S_, .f32⟩
  | .hbm, ⟨50, _⟩ => ⟨S128, .f32⟩
  | .hbm, ⟨51, _⟩ => ⟨S256, .f32⟩
  | .hbm, ⟨52, _⟩ => ⟨S100000x256, .f32⟩
  | .hbm, ⟨53, _⟩ => ⟨S100000x128, .f32⟩
  | .hbm, ⟨54, _⟩ => ⟨S100000x128, .f32⟩
  | .hbm, ⟨55, _⟩ => ⟨S_, .i32⟩
  | .hbm, ⟨56, _⟩ => ⟨S1700000, .i32⟩
  | .hbm, ⟨57, _⟩ => ⟨S1700000, .i1⟩
  | .hbm, ⟨58, _⟩ => ⟨S_, .i32⟩
  | .hbm, ⟨59, _⟩ => ⟨S1700000, .i32⟩
  | .hbm, ⟨60, _⟩ => ⟨S1700000, .i32⟩
  | .hbm, ⟨61, _⟩ => ⟨S1700000, .i32⟩
  | .hbm, ⟨62, _⟩ => ⟨S1700000x1, .i32⟩
  | .hbm, ⟨63, _⟩ => ⟨S1700000x128, .f32⟩
  | .hbm, ⟨64, _⟩ => ⟨S1700000x1, .f32⟩
  | .hbm, ⟨65, _⟩ => ⟨S1700000x128, .f32⟩
  | .hbm, ⟨66, _⟩ => ⟨S1700000x128, .f32⟩
  | .hbm, ⟨67, _⟩ => ⟨S_, .f32⟩
  | .hbm, ⟨68, _⟩ => ⟨S100000x128, .f32⟩
  | .hbm, ⟨69, _⟩ => ⟨S1700000x1, .i32⟩
  | .hbm, ⟨70, _⟩ => ⟨S100000x128, .f32⟩
  | .hbm, ⟨71, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x256, .f32⟩
  | .local _ .vmem, ⟨3, _⟩ => ⟨S256, .f32⟩
  | .local _ .vmem, ⟨4, _⟩ => ⟨S5000x256, .f32⟩
  | .local _ .vmem, ⟨5, _⟩ => ⟨S5000x256, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S128, .f32⟩
  | .local _ .vmem, ⟨11, _⟩ => ⟨S128, .f32⟩
  | .local _ .vmem, ⟨12, _⟩ => ⟨S128, .f32⟩
  | .local _ .vmem, ⟨13, _⟩ => ⟨S5000x128, .f32⟩
  | .local _ .vmem, ⟨14, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_6 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_c_7 : Ref sig .tc := ⟨.hbm, 55, rfl⟩
abbrev main_v36 : Ref sig .tc := ⟨.hbm, 56, rfl⟩
abbrev main_v37 : Ref sig .tc := ⟨.hbm, 57, rfl⟩
abbrev main_c_8 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  concatenates_S128x128_S128x128_S128x256_d1 : Shape.Concatenates [S128x128, S128x128] S128x256 1
  bcast_S_S128 : S_.BroadcastsInDim S128 (![] : Fin 0 → Fin S128.rank)
  concatenates_S128_S128_S256_d0 : Shape.Concatenates [S128, S128] S256 0
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S256_S256_0 : ∀ a, (![0] : Fin 1 → Nat) a + S256.size a ≤ S256.size a
  h_S256 : 0 < S256.numel
  shapeCasts_S256_S256 : S256.ShapeCasts S256
  shapeCasts_S256_S1x256 : S256.ShapeCasts S1x256
  broadcasts_S1x256_S5000x256 : S1x256.Broadcasts S5000x256
  inb_S5000x256_S5000x256_0_0 : ∀ a, (![0, 0] : Fin 2 → Nat) a + S5000x256.size a ≤ S5000x256.size a
  h_S5000x256 : 0 < S5000x256.numel
  slices_S100000x256_S100000x128_0_0 : S100000x256.Slices ![0, 0] S100000x128
  slices_S100000x256_S100000x128_0_128 : S100000x256.Slices ![0, 128] S100000x128
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S5000x128_S5000x128 : S5000x128.ShapeCasts S5000x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  reduces_S5000x128_S5000 : S5000x128.Reduces [1] S5000
  shapeCasts_S5000_S5000x1 : S5000.ShapeCasts S5000x1
  broadcasts_S5000x1_S5000x128 : S5000x1.Broadcasts S5000x128
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x256_S5000x256_1_0_0_1_n_n_wf : DotDims.WF S5000x128 S128x256 S5000x256 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x256.size a ≤ S100000x256.size a
  hwx0_3 : ∀ i : grid0.Coords, EltTy.bits .f32 = 32 ∨ (Rect.block (s := S100000x256) S5000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v30) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v33) S5000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v48) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v49) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x1 : Shape := ⟨2, ![100000, 1]⟩

abbrev nBuf : Space → Nat
  | .hbm => 102
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S100000x128, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x128, .f32⟩
  | .hbm, ⟨58, _⟩ => ⟨S1700000x1, .f32⟩
  | .hbm, ⟨59, _⟩ => ⟨S1700000x128, .f32⟩
  | .hbm, ⟨60, _⟩ => ⟨S1700000x128, .f32⟩
  | .hbm, ⟨61, _⟩ => ⟨S_, .f32⟩
  | .hbm, ⟨62, _⟩ => ⟨S100000x128, .f32⟩
  | .hbm, ⟨63, _⟩ => ⟨S1700000x1, .i32⟩
  | .hbm, ⟨64, _⟩ => ⟨S100000x128, .f32⟩
  | .hbm, ⟨65, _⟩ => ⟨S1x128, .f32⟩
  | .hbm, ⟨66, _⟩ => ⟨S100000x128, .f32⟩
  | .hbm, ⟨67, _⟩ => ⟨S100000x128, .f32⟩
  | .hbm, ⟨68, _⟩ => ⟨S100000x128, .f32⟩
  | .hbm, ⟨69, _⟩ => ⟨S1x128, .f32⟩
  | .hbm, ⟨70, _⟩ => ⟨S100000x128, .f32⟩
  | .hbm, ⟨71, _⟩ => ⟨S100000x128, .f32⟩
  | .hbm, ⟨72, _⟩ => ⟨S100000x128, .f32⟩
  | .hbm, ⟨73, _⟩ => ⟨S_, .f32⟩
  | .hbm, ⟨74, _⟩ => ⟨S100000, .f32⟩
  | .hbm, ⟨75, _⟩ => ⟨S100000x1, .f32⟩
  | .hbm, ⟨76, _⟩ => ⟨S_, .f32⟩
  | .hbm, ⟨77, _⟩ => ⟨S100000x1, .f32⟩
  | .hbm, ⟨78, _⟩ => ⟨S100000x1, .f32⟩
  | .hbm, ⟨79, _⟩ => ⟨S100000x128, .f32⟩
  | .hbm, ⟨80, _⟩ => ⟨S100000x128, .f32⟩
  | .hbm, ⟨81, _⟩ => ⟨S100000x128, .f32⟩
  | .hbm, ⟨82, _⟩ => ⟨S_, .f32⟩
  | .hbm, ⟨83, _⟩ => ⟨S100000, .f32⟩
  | .hbm, ⟨84, _⟩ => ⟨S100000x1, .f32⟩
  | .hbm, ⟨85, _⟩ => ⟨S_, .f32⟩
  | .hbm, ⟨86, _⟩ => ⟨S100000x1, .f32⟩
  | .hbm, ⟨87, _⟩ => ⟨S100000x1, .f32⟩
  | .hbm, ⟨88, _⟩ => ⟨S100000x128, .f32⟩
  | .hbm, ⟨89, _⟩ => ⟨S100000x128, .f32⟩
  | .hbm, ⟨90, _⟩ => ⟨S_, .f32⟩
  | .hbm, ⟨91, _⟩ => ⟨S100000x1, .f32⟩
  | .hbm, ⟨92, _⟩ => ⟨S100000x1, .f32⟩
  | .hbm, ⟨93, _⟩ => ⟨S100000x1, .f32⟩
  | .hbm, ⟨94, _⟩ => ⟨S100000x128, .f32⟩
  | .hbm, ⟨95, _⟩ => ⟨S100000x128, .f32⟩
  | .hbm, ⟨96, _⟩ => ⟨S1x128, .f32⟩
  | .hbm, ⟨97, _⟩ => ⟨S100000x128, .f32⟩
  | .hbm, ⟨98, _⟩ => ⟨S100000x128, .f32⟩
  | .hbm, ⟨99, _⟩ => ⟨S1x128, .f32⟩
  | .hbm, ⟨100, _⟩ => ⟨S100000x128, .f32⟩
  | .hbm, ⟨101, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_9 : Ref sig .tc := ⟨.hbm, 73, rfl⟩
abbrev main_v52 : Ref sig .tc := ⟨.hbm, 74, rfl⟩
abbrev main_v53 : Ref sig .tc := ⟨.hbm, 75, rfl⟩
abbrev main_cst_10 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_cst_12 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_cst_13 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S100000_d1 : S100000x128.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.RefAgg.lean ====
/- The message aggregation both programs share, as ONE function: every row of xw named by a source index (a
   negative index wrapped once by 100000), scaled by that edge's coefficient, and added into the row its destination
   index names, starting from zeros. Neither program's proof opens it; each side only shows that what it feeds the
   chain is the same. -/
import proofs.«125982_j18399639896341_1_alg».proof.Proof.RefReadPatched

noncomputable section

namespace Cert.ReferenceIdeal.Agg

open Cert.ReferenceIdeal Cert.ReferenceIdeal.Gen Cert.ReferenceIdeal.PRead
open Idealize.ShloMosaic Idealize.ShloMosaic.TcCoe Idealize.ShloMosaic.StableHlo

variable {F : FTy → Type} [FloatOps F]

/-- The gather–scale–scatter chain over the edge list (`src`, `dst`), the per-edge coefficients and the rows `xw`. -/
def aggOf (src dst : (⟨S1700000, .i32⟩ : BufTy).Contents (Elt F)) (coef : (⟨S1700000, .f32⟩ : BufTy).Contents (Elt F))
    (xw : (⟨S100000x128, .f32⟩ : BufTy).Contents (Elt F)) : (⟨S100000x128, .f32⟩ : BufTy).Contents (Elt F) :=
  Host.scatterAdd scatter_S100000x128_S1700000x1_S1700000x128_1_0_0_1
    (broadcastInDim S100000x128 ![] bcast_S_S100000x128 (constant (F := F) S_ .f32 0x00000000#32))
    (broadcastInDim S1700000x1 ![0] bcast_S1700000_S1700000x1_0 dst)
    (mulf
      (Host.gather gather_S100000x128_S1700000x1_S1700000x128_1_0_n_n_0_1_1128 xw
        (broadcastInDim S1700000x1 ![0] bcast_S1700000_S1700000x1_0
          (select (cmpi .slt src (broadcastInDim S1700000 ![] bcast_S_S1700000 (constantI S_ 32 0#32)))
            (addi src (broadcastInDim S1700000 ![] bcast_S_S1700000 (constantI S_ 32 100000#32))) src)))
      (broadcastInDim S1700000x128 ![0, 1] bcast_S1700000x1_S1700000x128_0_1
        (broadcastInDim S1700000x1 ![0] bcast_S1700000_S1700000x1_0 coef)))

/-- The reference's aggregated messages are the chain applied to its own edge list, coefficients and product x · W. -/
theorem v43_eq (x0 : (⟨S100000x128, .f32⟩ : BufTy).Contents (Elt F)) (x1 : (⟨S2x1600000, .i32⟩ : BufTy).Contents (Elt F))
    (x2 : (⟨S128x128, .f32⟩ : BufTy).Contents (Elt F)) :
    val_main_v43 (F := F) x0 x1 x2
      = aggOf (val_main_v3 (F := F) x1) (val_main_v6 (F := F) x1) (val_main_v29 (F := F) x1) (val_main_v30 (F := F) x0 x2) := by
  unfold val_main_v43 val_main_v42 val_main_v41 val_main_cst_8 val_main_v40 val_main_v39 val_main_v38 val_main_v37
    val_main_v36 val_main_v35 val_main_v34 val_main_v33 val_main_c_7 val_main_v32 val_main_v31 val_main_c_6 aggOf
  rfl

end Cert.ReferenceIdeal.Agg

end
-- ==== Proof.Spec.lean ====
/- The mathematics both programs compute, index by index on the extended reals.

   A graph-convolution layer followed by a row normalisation. For node features x (100000 rows of 128), weights W and
   Wl, the aggregated messages agg (a function of x · W and of the edges, the same on both sides) and the residual
   x · Wl + bl, each row h of  agg + b + (x · Wl + bl)  is normalised: with  μ = (Σ h) / 128  and
   v = (Σ (h − μ)²) / 128,  entry q of the result is  (h q − μ) · (v + ε)^(−1/2) · γ q + β q.
   Everything here is a function of ONE ROW of its operand, which is why a block of rows of the result is the same
   function of the matching block of rows of the operand. -/
import Idealize.ShloMosaic.PureOps.Ideal
import Idealize.ShloMosaic.PureOps.Ideal.Laws
import Idealize.ShloMosaic.Lib.ValueIdx

noncomputable section

namespace Cert.GcnNorm

open Idealize.ShloMosaic Idealize.ShloMosaic.ValueIdx
open scoped BigOperators

/-- An array of extended reals with `R` rows and `C` columns. -/
abbrev Mat (R C : Nat) : Type := (⟨2, ![R, C]⟩ : Shape).Idx → EReal
/-- A vector of `C` extended reals. -/
abbrev Row (C : Nat) : Type := (⟨1, ![C]⟩ : Shape).Idx → EReal

/-- The row length, 128, as the float literal both programs divide by. -/
def n128 : EReal := Ideal.ofBits .f32 0x43000000#32
/-- The stabiliser added to the variance: the same float literal in both programs. -/
def eps : EReal := Ideal.ofBits .f32 0x3727C5AC#32

/-- The mean of a row. -/
def rowMean (h : Fin 128 → EReal) : EReal := Ideal.div (∑ k : Fin 128, h k) n128

/-- The (biased) variance of a row: the mean of the squared deviations from the row's mean. -/
def rowVar (h : Fin 128 → EReal) : EReal :=
  Ideal.div (∑ k : Fin 128, (h k - rowMean h) * (h k - rowMean h)) n128

/-- Entry `q` of the normalised row: the deviation from the mean, times the inverse square root of the stabilised
    variance, scaled by `g` and shifted by `be`. -/
def normEntry (h : Fin 128 → EReal) (g be : EReal) (q : Fin 128) : EReal :=
  (h q - rowMean h) * Ideal.rsqrt (rowVar h + eps) * g + be

/-- Every row of `h` normalised, with per-column scale `g` and shift `be`. -/
def normRows {R : Nat} (h : Mat R 128) (g be : Row 128) : Mat R 128 :=
  fun i => normEntry (fun k => h (ix2 (i 0) k)) (g (ix1 (i 1))) (be (ix1 (i 1))) (i 1)

/-- The matrix product of `x` with `w`, plus the per-column bias `bc`. -/
def prodBias {R N : Nat} (x : Mat R 128) (w : Mat 128 N) (bc : Row N) : Mat R N :=
  fun i => (∑ k : Fin 128, x (ix2 (i 0) k) * w (ix2 k (i 1))) + bc (ix1 (i 1))

/-- The matrix product of `x` with `w`. -/
def prod {R N : Nat} (x : Mat R 128) (w : Mat 128 N) : Mat R N :=
  fun i => ∑ k : Fin 128, x (ix2 (i 0) k) * w (ix2 k (i 1))

/-- The sum of two arrays and a per-column bias, grouped as the kernel adds them: (a + r) + b. -/
def sumBias {R : Nat} (a r : Mat R 128) (b : Row 128) : Mat R 128 :=
  fun i => (a i + r i) + b (ix1 (i 1))

/-- A row of `normRows` depends only on that row of its operand: the result at row `p` of any array `H` whose row
    `p` is row `p'` of `h` is the result at row `p'` of `h`. -/
theorem normRows_row {R R' : Nat} (h : Mat R 128) (H : Mat R' 128) (g be : Row 128) (p : Fin R) (p' : Fin R') (q : Fin 128)
    (hrow : ∀ k : Fin 128, H (ix2 p' k) = h (ix2 p k)) :
    normRows H g be (ix2 p' q) = normRows h g be (ix2 p q) := by
  unfold normRows
  have e : (fun k : Fin 128 => H (ix2 p' k)) = fun k : Fin 128 => h (ix2 p k) := funext hrow
  show normEntry (fun k => H (ix2 p' k)) (g (ix1 q)) (be (ix1 q)) q = normEntry (fun k => h (ix2 p k)) (g (ix1 q)) (be (ix1 q)) q
  rw [e]

/-- Likewise a row of the product depends only on that row of the left operand. -/
theorem prodBias_row {R R' N : Nat} (x : Mat R 128) (X : Mat R' 128) (w : Mat 128 N) (bc : Row N) (p : Fin R) (p' : Fin R')
    (q : Fin N) (hrow : ∀ k : Fin 128, X (ix2 p' k) = x (ix2 p k)) :
    prodBias X w bc (ix2 p' q) = prodBias x w bc (ix2 p q) := by
  unfold prodBias
  show (∑ k : Fin 128, X (ix2 p' k) * w (ix2 k q)) + bc (ix1 q) = (∑ k : Fin 128, x (ix2 p k) * w (ix2 k q)) + bc (ix1 q)
  rw [Finset.sum_congr rfl fun k _ => by rw [hrow k]]

end Cert.GcnNorm

end
-- ==== Proof.LibDotPlain.lean ====
/- A matrix product read at one index, for dimension numbers with no batch axis and one contracted axis.

   Two arrangements: rows times columns (the left operand's second axis against the right operand's first), and
   the transposed-left product (both operands' first axes contracted: the left operand's columns index the result's
   rows). In both the contraction index is one coordinate, and the sum over it is a sum over that coordinate. The
   kernel's product into a zero accumulator and the host's product are that same sum. -/
import Idealize.ShloMosaic.PureOps.Ideal
import Idealize.ShloMosaic.PureOps.Ideal.Laws
import Idealize.ShloMosaic.Lib.ValueIdx

noncomputable section

namespace Cert.DotPlain

open Idealize.ShloMosaic Idealize.ShloMosaic.ValueIdx
open scoped BigOperators

/-! ## One contracted axis, no batch axis: the contraction shape and the operand coordinates -/

/-- A list that is a singleton has its one element at position 0. -/
theorem getElem_zero_of_eq_singleton {α : Type} {l : List α} {c : α} (h : l = [c]) (hp : 0 < l.length) : l[0] = c := by
  subst h; rfl

/-- With one contracted axis the contraction shape has one axis. -/
theorem contr_rank_one {sl sr so : Shape} (d : DotDims sl sr so) {c : Fin sl.rank} (hlc : d.lhsContracting = [c]) :
    d.contr.rank = 1 := by
  rw [d.rank_contr, hlc]; rfl

/-- That one axis has the extent of the left operand's contracted axis. -/
theorem contr_size_zero {sl sr so : Shape} (d : DotDims sl sr so) {c : Fin sl.rank} (hlc : d.lhsContracting = [c]) :
    d.contr.size ⟨0, by rw [contr_rank_one d hlc]; exact Nat.one_pos⟩ = sl.size c := by
  have hp : 0 < d.lhsContracting.length := by rw [hlc]; exact Nat.one_pos
  exact (d.size_contr 0 hp).trans (congrArg sl.size (getElem_zero_of_eq_singleton hlc hp))

/-- Moving along one index changes nothing but the position read. -/
private theorem val_congr {s : Shape} (j : s.Idx) (p q : Nat) (hp : p < s.rank) (hq : q < s.rank) (h : p = q) :
    (j ⟨p, hp⟩).val = (j ⟨q, hq⟩).val := by
  subst h; rfl

/-- No batch axis and one free axis on the left: on that axis the left operand reads the result's first coordinate. -/
theorem lhsIdx_val_nonContr {sl sr so : Shape} (d : DotDims sl sr so) (hlb : d.lhsBatch = [])
    {a : Fin sl.rank} (hln : d.lhsNonContracting = [a]) (j : so.Idx) (k : d.contr.Idx) (h0 : 0 < so.rank) :
    (d.lhsIdx j k a).val = (j ⟨0, h0⟩).val := by
  have hb : a ∉ d.lhsBatch := by rw [hlb]; exact List.not_mem_nil
  have hn : a ∈ d.lhsNonContracting := by rw [hln]; exact List.mem_singleton.mpr rfl
  unfold DotDims.lhsIdx
  rw [dif_neg hb, dif_pos hn]
  simp only [Fin.val_cast]
  exact val_congr j _ _ _ _ (by simp [hlb, hln])

/-- No batch axis and one free axis on each side: on its free axis the right operand reads the result's second
    coordinate (the result lists the left operand's free axis first). -/
theorem rhsIdx_val_nonContr {sl sr so : Shape} (d : DotDims sl sr so) (hlb : d.lhsBatch = []) (hrb : d.rhsBatch = [])
    {al : Fin sl.rank} (hln : d.lhsNonContracting = [al]) {a : Fin sr.rank} (hrn : d.rhsNonContracting = [a])
    (j : so.Idx) (k : d.contr.Idx) (h1 : 1 < so.rank) :
    (d.rhsIdx j k a).val = (j ⟨1, h1⟩).val := by
  have hb : a ∉ d.rhsBatch := by rw [hrb]; exact List.not_mem_nil
  have hn : a ∈ d.rhsNonContracting := by rw [hrn]; exact List.mem_singleton.mpr rfl
  unfold DotDims.rhsIdx
  rw [dif_neg hb, dif_pos hn]
  simp only [Fin.val_cast]
  exact val_congr j _ _ _ _ (by simp [hlb, hln, hrn])

/-! ## The contraction sum as a sum over the contracted coordinate -/

/-- Rows times columns: the contraction sum at (a, b) is the sum over k of l (a, k) · r (k, b). -/
theorem sum_rows_cols {M K N : Nat} (d : DotDims ⟨2, ![M, K]⟩ ⟨2, ![K, N]⟩ ⟨2, ![M, N]⟩)
    (hlb : d.lhsBatch = []) (hrb : d.rhsBatch = []) (hlc : d.lhsContracting = [1]) (hrc : d.rhsContracting = [0])
    (hln : d.lhsNonContracting = [0]) (hrn : d.rhsNonContracting = [1])
    (l : (⟨2, ![M, K]⟩ : Shape).Idx → EReal) (r : (⟨2, ![K, N]⟩ : Shape).Idx → EReal) (a : Fin M) (b : Fin N) :
    (∑ k : d.contr.Idx, l (d.lhsIdx (ix2 a b) k) * r (d.rhsIdx (ix2 a b) k)) = ∑ k : Fin K, l (ix2 a k) * r (ix2 k b) := by
  have hr : d.contr.rank = 1 := contr_rank_one d hlc
  have hs : d.contr.size ⟨0, by omega⟩ = K := contr_size_zero d hlc
  -- re-index the sum by the one contraction coordinate, then identify each operand's index axis by axis
  rw [← Equiv.sum_comp (contrEquiv1 d K hr hs).symm]
  refine Finset.sum_congr rfl fun k _ => ?_
  have hl : d.lhsIdx (ix2 a b) ((contrEquiv1 d K hr hs).symm k) = ix2 a k := by
    funext ax
    match ax with
    | ⟨0, _⟩ => exact Fin.ext (lhsIdx_val_nonContr d hlb hln _ _ Nat.zero_lt_two)
    | ⟨1, _⟩ => exact Fin.ext ((d.lhsIdx_val_of_single hlc _ _).trans (contrEquiv1_symm_val d K hr hs k))
  have hrr : d.rhsIdx (ix2 a b) ((contrEquiv1 d K hr hs).symm k) = ix2 k b := by
    funext ax
    match ax with
    | ⟨0, _⟩ => exact Fin.ext ((d.rhsIdx_val_of_single hrc _ _).trans (contrEquiv1_symm_val d K hr hs k))
    | ⟨1, _⟩ => exact Fin.ext (rhsIdx_val_nonContr d hlb hrb hln hrn _ _ Nat.one_lt_two)
  rw [hl, hrr]

/-- Transposed-left product: the contraction sum at (a, b) is the sum over k of l (k, a) · r (k, b). -/
theorem sum_cols_cols {M K N : Nat} (d : DotDims ⟨2, ![K, M]⟩ ⟨2, ![K, N]⟩ ⟨2, ![M, N]⟩)
    (hlb : d.lhsBatch = []) (hrb : d.rhsBatch = []) (hlc : d.lhsContracting = [0]) (hrc : d.rhsContracting = [0])
    (hln : d.lhsNonContracting = [1]) (hrn : d.rhsNonContracting = [1])
    (l : (⟨2, ![K, M]⟩ : Shape).Idx → EReal) (r : (⟨2, ![K, N]⟩ : Shape).Idx → EReal) (a : Fin M) (b : Fin N) :
    (∑ k : d.contr.Idx, l (d.lhsIdx (ix2 a b) k) * r (d.rhsIdx (ix2 a b) k)) = ∑ k : Fin K, l (ix2 k a) * r (ix2 k b) := by
  have hr : d.contr.rank = 1 := contr_rank_one d hlc
  have hs : d.contr.size ⟨0, by omega⟩ = K := contr_size_zero d hlc
  rw [← Equiv.sum_comp (contrEquiv1 d K hr hs).symm]
  refine Finset.sum_congr rfl fun k _ => ?_
  -- the left operand's first axis is the contracted one, its second axis carries the result's row
  have hl : d.lhsIdx (ix2 a b) ((contrEquiv1 d K hr hs).symm k) = ix2 k a := by
    funext ax
    match ax with
    | ⟨0, _⟩ => exact Fin.ext ((d.lhsIdx_val_of_single hlc _ _).trans (contrEquiv1_symm_val d K hr hs k))
    | ⟨1, _⟩ => exact Fin.ext (lhsIdx_val_nonContr d hlb hln _ _ Nat.zero_lt_two)
  have hrr : d.rhsIdx (ix2 a b) ((contrEquiv1 d K hr hs).symm k) = ix2 k b := by
    funext ax
    match ax with
    | ⟨0, _⟩ => exact Fin.ext ((d.rhsIdx_val_of_single hrc _ _).trans (contrEquiv1_symm_val d K hr hs k))
    | ⟨1, _⟩ => exact Fin.ext (rhsIdx_val_nonContr d hlb hrb hln hrn _ _ Nat.one_lt_two)
  rw [hl, hrr]

/-! ## The two products at an index -/

/-- The host's product, rows times columns, at an index. -/
theorem dotGeneral_rows_cols {M K N : Nat} {φ₁ φ₂ : FTy} (d : DotDims ⟨2, ![M, K]⟩ ⟨2, ![K, N]⟩ ⟨2, ![M, N]⟩)
    (hlb : d.lhsBatch = []) (hrb : d.rhsBatch = []) (hlc : d.lhsContracting = [1]) (hrc : d.rhsContracting = [0])
    (hln : d.lhsNonContracting = [0]) (hrn : d.rhsNonContracting = [1])
    (prec : Option ContractPrecision) (sched : HostSchedule)
    (l : FVec Ideal ⟨2, ![M, K]⟩ φ₁) (r : FVec Ideal ⟨2, ![K, N]⟩ φ₂) (a : Fin M) (b : Fin N) :
    FloatOps.dotGeneral d prec sched l r (ix2 a b) = ∑ k : Fin K, l (ix2 a k) * r (ix2 k b) :=
  (Ideal.dotGeneral_apply d prec sched l r (ix2 a b)).trans (sum_rows_cols d hlb hrb hlc hrc hln hrn l r a b)

/-- The kernel's product into the zero accumulator, rows times columns, at an index. -/
theorem matmul_zero_rows_cols {M K N : Nat} {φ₁ φ₂ : FTy} (d : DotDims ⟨2, ![M, K]⟩ ⟨2, ![K, N]⟩ ⟨2, ![M, N]⟩)
    (hlb : d.lhsBatch = []) (hrb : d.rhsBatch = []) (hlc : d.lhsContracting = [1]) (hrc : d.rhsContracting = [0])
    (hln : d.lhsNonContracting = [0]) (hrn : d.rhsNonContracting = [1])
    (prec : Option ContractPrecision)
    (l : FVec Ideal ⟨2, ![M, K]⟩ φ₁) (r : FVec Ideal ⟨2, ![K, N]⟩ φ₂) (a : Fin M) (b : Fin N) :
    FloatOps.matmul d prec l r (constant ⟨2, ![M, N]⟩ .f32 0x00000000#32) (ix2 a b) = ∑ k : Fin K, l (ix2 a k) * r (ix2 k b) :=
  (Ideal.matmul_constant_zero_apply d prec l r (ix2 a b)).trans (sum_rows_cols d hlb hrb hlc hrc hln hrn l r a b)

/-- The kernel's transposed-left product into the zero accumulator, at an index. -/
theorem matmul_zero_cols_cols {M K N : Nat} {φ₁ φ₂ : FTy} (d : DotDims ⟨2, ![K, M]⟩ ⟨2, ![K, N]⟩ ⟨2, ![M, N]⟩)
    (hlb : d.lhsBatch = []) (hrb : d.rhsBatch = []) (hlc : d.lhsContracting = [0]) (hrc : d.rhsContracting = [0])
    (hln : d.lhsNonContracting = [1]) (hrn : d.rhsNonContracting = [1])
    (prec : Option ContractPrecision)
    (l : FVec Ideal ⟨2, ![K, M]⟩ φ₁) (r : FVec Ideal ⟨2, ![K, N]⟩ φ₂) (a : Fin M) (b : Fin N) :
    FloatOps.matmul d prec l r (constant ⟨2, ![M, N]⟩ .f32 0x00000000#32) (ix2 a b) = ∑ k : Fin K, l (ix2 k a) * r (ix2 k b) :=
  (Ideal.matmul_constant_zero_apply d prec l r (ix2 a b)).trans (sum_cols_cols d hlb hrb hlc hrc hln hrn l r a b)

end Cert.DotPlain

end
-- ==== Proof.MatmulBody.lean ====
/- The first kernel's body at the extended reals: a block of 5000 rows of x, cast to a narrower float format
   (the identity on extended reals), times the whole 128 × 256 weight array into a zero accumulator, plus the bias row
   spread over the rows. Index by index that is the specification's product-plus-bias of the block. -/
import proofs.«125982_j18399639896341_1_alg».proof.Proof.Gen.KernelIdeal.Skeleton
import proofs.«125982_j18399639896341_1_alg».proof.Proof.Spec
import proofs.«125982_j18399639896341_1_alg».proof.Proof.LibDotPlain
import Idealize.ShloMosaic.Lib.Pipeline.Value
import Idealize.ShloMosaic.Lib.ValueLayout
import Idealize.ShloMosaic.Lib.ValueIdx

noncomputable section

namespace Cert.KernelIdeal.MatmulBody

open Cert.KernelIdeal Cert.KernelIdeal.Gen Cert.GcnNorm
open Idealize.ShloMosaic Idealize.ShloMosaic.ValueIdx

/-- The bias vector, made a one-row array and spread over the block's rows, read at (p, q): the bias at q. -/
theorem bias_apply (x2 : Vec Ideal S256 .f32) (p : Fin 5000) (q : Fin 256) :
    broadcastTo S5000x256 (shapeCast S1x256 (shapeCast S256 x2 shapeCasts_S256_S256) shapeCasts_S256_S1x256)
        broadcasts_S1x256_S5000x256 (ix2 p q) = x2 (ix1 q) := by
  rw [shapeCast_self]
  exact (broadcastTo_1b_ab_apply _ _ p q).trans (shapeCast_a_1a_apply x2 _ 0 q)

/-- The product into the zero accumulator read at (p, q): the sum over k of the block's row p times the weights'
    column q. The change of float format on both operands is the identity on extended reals. -/
theorem prod_apply (x0 : Vec Ideal S5000x128 .f32) (x1 : Vec Ideal S128x256 .f32) (p : Fin 5000) (q : Fin 256) :
    matmul (F := Ideal) dot_S5000x128_S128x256_S5000x256_1_0_0_1_n_n none (truncf .bf16 x0 bitsLt_bf16_f32)
        (truncf .bf16 (shapeCast S128x256 x1 shapeCasts_S128x256_S128x256) bitsLt_bf16_f32)
        (constant S5000x256 .f32 0x00000000#32) (ix2 p q)
      = ∑ k : Fin 128, x0 (ix2 p k) * x1 (ix2 k q) := by
  rw [shapeCast_self]
  exact Cert.DotPlain.matmul_zero_rows_cols dot_S5000x128_S128x256_S5000x256_1_0_0_1_n_n rfl rfl rfl rfl rfl rfl none
    (truncf .bf16 x0 bitsLt_bf16_f32) (truncf .bf16 x1 bitsLt_bf16_f32) p q

/-- The body's stored value is the product-plus-bias of its three loads. -/
theorem body0_eq (x0 : Vec Ideal S5000x128 .f32) (x1 : Vec Ideal S128x256 .f32) (x2 : Vec Ideal S256 .f32) :
    k0_pay1 (F := Ideal) x0 x1 x2 = prodBias (R := 5000) (N := 256) x0 x1 x2 := by
  funext j
  obtain ⟨p, q, rfl⟩ : ∃ (p : Fin 5000) (q : Fin 256), j = ix2 p q := ⟨j 0, j 1, eq_ix2 j⟩
  unfold k0_pay1 prodBias
  refine (congrArg₂ (· + ·) (prod_apply x0 x1 p q) (bias_apply x2 p q)).trans ?_
  rfl

end Cert.KernelIdeal.MatmulBody

end
-- ==== Proof.MatmulArray.lean ====
/- From blocks to the array, for the product-plus-bias kernel.

   The grid has 20 points; point t works on rows 5000·t … 5000·t + 4999. At that point the block of x is those rows
   of x, the weights and the bias are whole, and the block written back is the body's function of them. Because a row of
   the product depends only on the same row of the left operand, the block written back at point t is rows
   5000·t … 5000·t + 4999 of ONE function of the whole arrays; the 20 blocks cover all 100000 rows, so the array ends
   holding that function. -/
import proofs.«125982_j18399639896341_1_alg».proof.Proof.Gen.KernelIdeal.Frame
import proofs.«125982_j18399639896341_1_alg».proof.Proof.Spec
import proofs.«125982_j18399639896341_1_alg».proof.Proof.MatmulBody
import Idealize.ShloMosaic.Lib.Pipeline.Value
import Idealize.ShloMosaic.Lib.ValueIdx

set_option maxRecDepth 16384

noncomputable section

namespace Cert.KernelIdeal.MatmulArray

open Cert.KernelIdeal Cert.KernelIdeal.Gen Cert.GcnNorm
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The zero offsets of an access to a whole rank-2 buffer are the constant zero. -/
theorem hz : (![0, 0] : Fin 2 → Nat) = fun _ => 0 := funext fun a => by fin_cases a <;> rfl

/-- The zero offset of an access to a whole rank-1 buffer is the constant zero. -/
theorem hz1 : (![0] : Fin 1 → Nat) = fun _ => 0 := funext fun a => by fin_cases a <;> rfl

/-- The block indices at every point of the grid: the block of x and the block written back are block t along the
    rows and block 0 along the columns; the weights and the bias are always their one block 0. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- The grid has 20 points. -/
theorem point_lt (t : Fin cfg0.N) : t.val < 20 := by
  have hN : cfg0.N = 20 := N_0
  have := t.isLt
  omega

/-- The block of x at point t. -/
abbrev xblk (c : Dev nD) (t : Fin cfg0.N) : Vec Ideal S5000x128 .f32 := iblk0 V c 0 t
/-- The block of the weights at point t. -/
abbrev wblk (c : Dev nD) (t : Fin cfg0.N) : Vec Ideal S128x256 .f32 := iblk0 V c 1 t
/-- The block of the bias at point t. -/
abbrev bblk (c : Dev nD) (t : Fin cfg0.N) : Vec Ideal S256 .f32 := iblk0 V c 2 t

/-- Entry (p, k) of the block of x at point t is entry (5000·t + p, k) of x. -/
theorem xblk_apply (c : Dev nD) (t : Fin cfg0.N) (p : Fin 5000) (k : Fin 128) (P : Fin 100000)
    (hP : P.val = 5000 * t.val + p.val) :
    xblk V c t (ix2 p k) = (V c main_arg0 : Vec Ideal S100000x128 .f32) (ix2 P k) := by
  obtain ⟨e0, e1, -⟩ := idx_facts t
  show V c main_arg0 (((cfg0.win 0).blk t).view.emb (ix2 p k)) = V c main_arg0 (ix2 P k)
  refine congrArg (V c main_arg0) ?_
  funext a; apply Fin.ext
  match a with
  | ⟨0, _⟩ => show win0_0.index t (0 : Fin 2) * 5000 + 1 * p.val = P.val; omega
  | ⟨1, _⟩ => show win0_0.index t (1 : Fin 2) * 128 + 1 * k.val = k.val; omega

/-- The block of the weights at any point is the whole array of weights. -/
theorem wblk_eq (c : Dev nD) (t : Fin cfg0.N) : wblk V c t = (V c main_v30 : Vec Ideal S128x256 .f32) := by
  obtain ⟨-, -, e0, e1, -⟩ := idx_facts t
  funext y
  show V c main_v30 (((cfg0.win 1).blk t).view.emb y) = V c main_v30 y
  refine congrArg (V c main_v30) ?_
  funext a; apply Fin.ext
  match a with
  | ⟨0, _⟩ => show win0_1.index t (0 : Fin 2) * 128 + 1 * (y 0).val = (y 0).val; omega
  | ⟨1, _⟩ => show win0_1.index t (1 : Fin 2) * 256 + 1 * (y 1).val = (y 1).val; omega

/-- The block of the bias at any point is the whole bias. -/
theorem bblk_eq (c : Dev nD) (t : Fin cfg0.N) : bblk V c t = (V c main_v32 : Vec Ideal S256 .f32) := by
  obtain ⟨-, -, -, -, e0, -⟩ := idx_facts t
  funext y
  show V c main_v32 (((cfg0.win 2).blk t).view.emb y) = V c main_v32 y
  refine congrArg (V c main_v32) ?_
  funext a; apply Fin.ext
  match a with
  | ⟨0, _⟩ => show win0_2.index t (0 : Fin 1) * 256 + 1 * (y 0).val = (y 0).val; omega

/-- Entry (p, q) of the block written back at point t sits at (5000·t + p, q) of the result array. -/
theorem out_emb (t : Fin cfg0.N) (p : Fin 5000) (q : Fin 256) (P : Fin 100000)
    (hP : P.val = 5000 * t.val + p.val) :
    @Eq S100000x256.Idx (((cfg0.win 3).blk t).view.emb (ix2 p q)) (ix2 P q) := by
  obtain ⟨-, -, -, -, -, e0, e1⟩ := idx_facts t
  funext a; apply Fin.ext
  match a with
  | ⟨0, _⟩ => show win0_3.index t (0 : Fin 2) * 5000 + 1 * p.val = P.val; omega
  | ⟨1, _⟩ => show win0_3.index t (1 : Fin 2) * 256 + 1 * q.val = q.val; omega

/-- The body's function of the blocks at point t, at an entry of the block, is the product-plus-bias of the WHOLE
    arrays at that entry's place in the result array: a row of the product depends only on that row of x. -/
theorem block_entry (c : Dev nD) (t : Fin cfg0.N) (y : S5000x256.Idx) :
    prodBias (R := 5000) (N := 256) (xblk V c t) (wblk V c t) (bblk V c t) y
      = prodBias (R := 100000) (N := 256) (V c main_arg0) (V c main_v30) (V c main_v32)
          (((cfg0.win 3).blk t).view.emb y) := by
  obtain ⟨p, q, rfl⟩ : ∃ (p : Fin 5000) (q : Fin 256), y = ix2 p q := ⟨y 0, y 1, eq_ix2 y⟩
  have ht := point_lt t
  rw [wblk_eq, bblk_eq]
  refine Eq.trans ?_ (congrArg (prodBias (R := 100000) (N := 256) (V c main_arg0) (V c main_v30) (V c main_v32))
    (out_emb t p q ⟨5000 * t.val + p.val, by have := p.isLt; omega⟩ rfl)).symm
  exact prodBias_row (V c main_arg0) (xblk V c t) (V c main_v30) (V c main_v32) _ p q
    (fun k => xblk_apply V c t p k _ rfl)

/-- WHAT POINT t WRITES BACK is block t of the product-plus-bias of the whole arrays. -/
theorem flushed_eq (c : Dev nD) (t : Fin cfg0.N) :
    (dat0 (F := Ideal) V c).flushed 3 t = ((cfg0.win 3).blk t).view.read (Elt Ideal)
      (prodBias (R := 100000) (N := 256) (V c main_arg0) (V c main_v30) (V c main_v32)) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x256) hz,
    View.ld_unit_zero (S := S256) hz1]
  rw [MatmulBody.body0_eq]
  funext y
  exact block_entry V c t y

/-- An index of the result array is in point t's block iff each coordinate is in the block's range on its axis. -/
theorem mem_blk (t : Fin cfg0.N) (i : S100000x256.Idx) :
    i ∈ ((cfg0.win 3).blk t).view.set ↔ ∀ a : Fin 2, win0_3.index t a * S5000x256.size a ≤ (i a).val
      ∧ (i a).val < win0_3.index t a * S5000x256.size a + S5000x256.size a := by
  show i ∈ ((View.whole main_v33).slice (win0_3.rect t)).set ↔ _
  rw [View.set_slice_whole, Rect.mem_set_unit]
  exact Iff.rfl

/-- Every index of the result array is in the block of the point its row falls in: row r belongs to point r / 5000. -/
theorem cover (i : S100000x256.Idx) :
    ∃ t : Fin cfg0.N, (cfg0.win 3).flush t = true ∧ i ∈ ((cfg0.win 3).blk t).view.set := by
  have hN : cfg0.N = 20 := N_0
  have hi0 : (i 0).val < 100000 := (i 0).isLt
  have hi1 : (i 1).val < 256 := (i 1).isLt
  obtain ⟨t, ht⟩ : ∃ t : Fin cfg0.N, t.val = (i 0).val / 5000 := ⟨⟨(i 0).val / 5000, by omega⟩, rfl⟩
  obtain ⟨-, -, -, -, -, e0, e1⟩ := idx_facts t
  refine ⟨t, flush0_3 t, ?_⟩
  rw [mem_blk]
  intro a
  match a with
  | ⟨0, _⟩ =>
    show win0_3.index t (0 : Fin 2) * 5000 ≤ (i 0).val ∧ (i 0).val < win0_3.index t (0 : Fin 2) * 5000 + 5000
    omega
  | ⟨1, _⟩ =>
    show win0_3.index t (1 : Fin 2) * 256 ≤ (i 1).val ∧ (i 1).val < win0_3.index t (1 : Fin 2) * 256 + 256
    omega

theorem arr0 (c : Dev nD) :
    (dat0 (F := Ideal) V c).arrAt 3 cfg0.N
      = prodBias (R := 100000) (N := 256) (V c main_arg0) (V c main_v30) (V c main_v32) :=
  (dat0 (F := Ideal) V c).arrAt_eq_of_cover 3 _ (fun t _ => flushed_eq V c t) cover

end Cert.KernelIdeal.MatmulArray

end
-- ==== Proof.LibKeepDims.lean ====
/- Keep-dimension column forms of two layout operations, read at an index: a vector made a one-column array,
   and a one-column array spread over many columns. (The row forms, a vector made a one-row array and one row spread
   over many, are in the library; these are their transposes.) -/
import Idealize.ShloMosaic.Lib.Pipeline.Value
import Idealize.ShloMosaic.Lib.ValueIdx

noncomputable section

namespace Cert.KeepDims

open Idealize.ShloMosaic Idealize.ShloMosaic.ValueIdx

variable {α : Type}

/-- An `[a]` array cast to `[a, 1]` reads, at `(i, u)`, the operand at `i`, whatever the unit coordinate `u`:
    the two indices have the same row-major position, i = i · 1 + 0. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's row `p` (its one column). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.KeepDims

end
-- ==== Proof.NormBody.lean ====
/- The second kernel's body, read entry by entry on the extended reals, is the row normalisation of the sum of its
   first two operands and the bias row.

   Entry (p, q) of the body is built from the pre-normalisation array  h = (x0 + x1) + x2 (spread over the rows):
   the row sum Σ_k h(p, k), divided by 128, is the mean μ of row p (kept as a one-column array and spread back over the
   128 columns); the deviations d = h − μ are squared, summed along the row and divided by 128, which is the variance v;
   the entry is  d(p, q) · (v + ε)^(−1/2) · x3 q + x4 q.  Each array operation is read at an index by one small lemma
   (a sum along the row by `rowSum_apply`; the layout operations by the library's and the keep-dimension forms), after
   which both sides are the same expression in the entries of x0 … x4. -/
import proofs.«125982_j18399639896341_1_alg».proof.Proof.Gen.KernelIdeal.Skeleton
import proofs.«125982_j18399639896341_1_alg».proof.Proof.Spec
import proofs.«125982_j18399639896341_1_alg».proof.Proof.LibKeepDims
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.NormBody

open Cert.KernelIdeal Cert.KernelIdeal.Gen Cert.GcnNorm
open Idealize.ShloMosaic Idealize.ShloMosaic.ValueIdx
open scoped BigOperators

/-- The inverse square root of an array, read at an index, is the inverse square root of the entry there. -/
theorem rsqrt_apply {s : Shape} {φ : FTy} (a : FVec Ideal s φ) (i : s.Idx) : rsqrt a i = Ideal.rsqrt (a i) := rfl

/-- Summing a 5000 × 128 array along its columns leaves the rows; the entry the sum at row `p` visits for the
    column `k` is the entry `(p, k)`. -/
theorem lift_row (h : S5000x128.Reduces [1] S5000) (p : Fin 5000) (k : Fin 128) :
    h.lift (ix1 p) k = ix2 p k := by
  funext a
  match a with
  | ⟨0, _⟩ => exact Fin.ext rfl
  | ⟨1, _⟩ => exact Fin.ext rfl

/-- The sum along the columns of a 5000 × 128 array, read at row `p`, is the sum of that row's 128 entries. (The two
    side conditions are typed as they stand in the body: the format is one of the two a sum is taken in, and the
    starting word is the zero word.) -/
theorem rowSum_apply (v : FVec Ideal S5000x128 .f32) (h : S5000x128.Reduces [1] S5000)
    (hφ : FTy.f32 = FTy.f32 ∨ FTy.f32 = FTy.bf16)
    (hacc : @Eq (BitVec FTy.f32.bits) 0x00000000#32 0x00000000#32) (p : Fin 5000) :
    multiReduction (F := Ideal) .add [1] S5000 v 0x00000000#32 h hφ hacc (ix1 p) = ∑ k : Fin 128, v (ix2 p k) := by
  refine (Ideal.multiReduction_add_single v 0x00000000#32 h hφ hacc (ix1 p)).trans ?_
  exact Finset.sum_congr rfl fun k _ => congrArg v (lift_row h p k)

/-- The body of the second kernel is the row normalisation of `(x0 + x1) + x2` with scale `x3` and shift `x4`. At the
    entry `(p, q)`: the elementwise operations and the layout operations are read at the index; the row sum that gives
    the mean and the row sum that gives the variance become sums over the 128 columns; inside the variance's sum the
    mean's row sum appears once more and is read the same way. What is left on either side is
    `(h(p,q) − μ) · rsqrt (v + ε) · x3 q + x4 q` written out in the entries of `x0 … x4`. -/
theorem body1_eq (x0 x1 : Vec Ideal S5000x128 .f32) (x2 x3 x4 : Vec Ideal S128 .f32) :
    k1_pay1 (F := Ideal) x0 x1 x2 x3 x4 = normRows (R := 5000) (sumBias x0 x1 x2) x3 x4 := by
  funext j
  obtain ⟨p, q, rfl⟩ : ∃ (p : Fin 5000) (q : Fin 128), j = ix2 p q := ⟨j 0, j 1, eq_ix2 j⟩
  unfold k1_pay1
  -- the outer layers at (p, q): scale, shift, the deviation, and the two one-column arrays spread over the columns
  simp only [addf_apply, mulf_apply, subf_apply, divf_apply, rsqrt_apply, broadcast_apply, shapeCast_self,
    broadcastTo_1b_ab_apply, shapeCast_a_1a_apply, Cert.KeepDims.broadcastTo_a1_ab_apply,
    Cert.KeepDims.shapeCast_a_a1_apply, Ideal.ofBits_def]
  -- the mean's row sum and the variance's row sum, at row p
  rw [rowSum_apply, rowSum_apply]
  -- the squared deviation at (p, k), under the variance's sum
  simp only [addf_apply, mulf_apply, subf_apply, divf_apply, broadcast_apply,
    broadcastTo_1b_ab_apply, shapeCast_a_1a_apply, Cert.KeepDims.broadcastTo_a1_ab_apply,
    Cert.KeepDims.shapeCast_a_a1_apply]
  -- the mean's row sum again, inside the deviation (it does not depend on the column k)
  rw [rowSum_apply]
  simp only [addf_apply, broadcastTo_1b_ab_apply, shapeCast_a_1a_apply]
  unfold normRows normEntry rowVar rowMean sumBias n128 eps
  rfl

end Cert.KernelIdeal.NormBody

end
-- ==== Proof.NormArray.lean ====
/- From blocks to the array, for the row-normalisation kernel.

   The grid has 20 points; point t works on rows 5000·t … 5000·t + 4999. At that point the blocks of the two summands
   are those rows of the two arrays, the bias, the scale and the shift are whole, and the block written back is the
   body's function of them. Because a normalised row depends only on the same row of the operand, the block written
   back at point t is rows 5000·t … 5000·t + 4999 of ONE function of the whole arrays; the 20 blocks cover all 100000
   rows, so the array ends holding that function. -/
import proofs.«125982_j18399639896341_1_alg».proof.Proof.Gen.KernelIdeal.Frame
import proofs.«125982_j18399639896341_1_alg».proof.Proof.Spec
import proofs.«125982_j18399639896341_1_alg».proof.Proof.NormBody
import Idealize.ShloMosaic.Lib.Pipeline.Value
import Idealize.ShloMosaic.Lib.ValueIdx

set_option maxRecDepth 16384

noncomputable section

namespace Cert.KernelIdeal.NormArray

open Cert.KernelIdeal Cert.KernelIdeal.Gen Cert.GcnNorm
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The zero offsets of an access to a whole rank-2 buffer are the constant zero. -/
theorem hz : (![0, 0] : Fin 2 → Nat) = fun _ => 0 := funext fun a => by fin_cases a <;> rfl

/-- The zero offset of an access to a whole rank-1 buffer is the constant zero. -/
theorem hz1 : (![0] : Fin 1 → Nat) = fun _ => 0 := funext fun a => by fin_cases a <;> rfl

/-- The block indices at every point of the grid: the blocks of the two summands and the block written back are
    block t along the rows and block 0 along the columns; the bias, the scale and the shift are always their one
    block 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 1) = 0
    ∧ win1_3.index t (0 : Fin 1) = 0
    ∧ win1_4.index t (0 : Fin 1) = 0
    ∧ win1_5.index t (0 : Fin 2) = t.val ∧ win1_5.index t (1 : Fin 2) = 0 :=
  (by decide +kernel : ∀ t : Fin grid1.N, _)

/-- The grid has 20 points. -/
theorem point_lt (t : Fin cfg1.N) : t.val < 20 := by
  have hN : cfg1.N = 20 := N_1
  have := t.isLt
  omega

/-- The block of the first summand at point t. -/
abbrev ablk (c : Dev nD) (t : Fin cfg1.N) : Vec Ideal S5000x128 .f32 := iblk1 V c 0 t
/-- The block of the second summand at point t. -/
abbrev rblk (c : Dev nD) (t : Fin cfg1.N) : Vec Ideal S5000x128 .f32 := iblk1 V c 1 t
/-- The block of the bias at point t. -/
abbrev bblk (c : Dev nD) (t : Fin cfg1.N) : Vec Ideal S128 .f32 := iblk1 V c 2 t
/-- The block of the scale at point t. -/
abbrev gblk (c : Dev nD) (t : Fin cfg1.N) : Vec Ideal S128 .f32 := iblk1 V c 3 t
/-- The block of the shift at point t. -/
abbrev sblk (c : Dev nD) (t : Fin cfg1.N) : Vec Ideal S128 .f32 := iblk1 V c 4 t

/-- Entry (p, k) of the block of the first summand at point t is entry (5000·t + p, k) of that array. -/
theorem ablk_apply (c : Dev nD) (t : Fin cfg1.N) (p : Fin 5000) (k : Fin 128) (P : Fin 100000)
    (hP : P.val = 5000 * t.val + p.val) :
    ablk V c t (ix2 p k) = (V c main_v48 : Vec Ideal S100000x128 .f32) (ix2 P k) := by
  obtain ⟨e0, e1, -⟩ := idx_facts t
  show V c main_v48 (((cfg1.win 0).blk t).view.emb (ix2 p k)) = V c main_v48 (ix2 P k)
  refine congrArg (V c main_v48) ?_
  funext a; apply Fin.ext
  match a with
  | ⟨0, _⟩ => show win1_0.index t (0 : Fin 2) * 5000 + 1 * p.val = P.val; omega
  | ⟨1, _⟩ => show win1_0.index t (1 : Fin 2) * 128 + 1 * k.val = k.val; omega

/-- Entry (p, k) of the block of the second summand at point t is entry (5000·t + p, k) of that array. -/
theorem rblk_apply (c : Dev nD) (t : Fin cfg1.N) (p : Fin 5000) (k : Fin 128) (P : Fin 100000)
    (hP : P.val = 5000 * t.val + p.val) :
    rblk V c t (ix2 p k) = (V c main_v35 : Vec Ideal S100000x128 .f32) (ix2 P k) := by
  obtain ⟨-, -, e0, e1, -⟩ := idx_facts t
  show V c main_v35 (((cfg1.win 1).blk t).view.emb (ix2 p k)) = V c main_v35 (ix2 P k)
  refine congrArg (V c main_v35) ?_
  funext a; apply Fin.ext
  match a with
  | ⟨0, _⟩ => show win1_1.index t (0 : Fin 2) * 5000 + 1 * p.val = P.val; omega
  | ⟨1, _⟩ => show win1_1.index t (1 : Fin 2) * 128 + 1 * k.val = k.val; omega

/-- The block of the bias at any point is the whole bias. -/
theorem bblk_eq (c : Dev nD) (t : Fin cfg1.N) : bblk V c t = (V c main_arg3 : Vec Ideal S128 .f32) := by
  obtain ⟨-, -, -, -, e0, -⟩ := idx_facts t
  funext y
  show V c main_arg3 (((cfg1.win 2).blk t).view.emb y) = V c main_arg3 y
  refine congrArg (V c main_arg3) ?_
  funext a; apply Fin.ext
  match a with
  | ⟨0, _⟩ => show win1_2.index t (0 : Fin 1) * 128 + 1 * (y 0).val = (y 0).val; omega

/-- The block of the scale at any point is the whole scale. -/
theorem gblk_eq (c : Dev nD) (t : Fin cfg1.N) : gblk V c t = (V c main_arg6 : Vec Ideal S128 .f32) := by
  obtain ⟨-, -, -, -, -, e0, -⟩ := idx_facts t
  funext y
  show V c main_arg6 (((cfg1.win 3).blk t).view.emb y) = V c main_arg6 y
  refine congrArg (V c main_arg6) ?_
  funext a; apply Fin.ext
  match a with
  | ⟨0, _⟩ => show win1_3.index t (0 : Fin 1) * 128 + 1 * (y 0).val = (y 0).val; omega

/-- The block of the shift at any point is the whole shift. -/
theorem sblk_eq (c : Dev nD) (t : Fin cfg1.N) : sblk V c t = (V c main_arg7 : Vec Ideal S128 .f32) := by
  obtain ⟨-, -, -, -, -, -, e0, -⟩ := idx_facts t
  funext y
  show V c main_arg7 (((cfg1.win 4).blk t).view.emb y) = V c main_arg7 y
  refine congrArg (V c main_arg7) ?_
  funext a; apply Fin.ext
  match a with
  | ⟨0, _⟩ => show win1_4.index t (0 : Fin 1) * 128 + 1 * (y 0).val = (y 0).val; omega

/-- Entry (p, q) of the block written back at point t sits at (5000·t + p, q) of the result array. -/
theorem out_emb (t : Fin cfg1.N) (p : Fin 5000) (q : Fin 128) (P : Fin 100000)
    (hP : P.val = 5000 * t.val + p.val) :
    @Eq S100000x128.Idx (((cfg1.win 5).blk t).view.emb (ix2 p q)) (ix2 P q) := by
  obtain ⟨-, -, -, -, -, -, -, e0, e1⟩ := idx_facts t
  funext a; apply Fin.ext
  match a with
  | ⟨0, _⟩ => show win1_5.index t (0 : Fin 2) * 5000 + 1 * p.val = P.val; omega
  | ⟨1, _⟩ => show win1_5.index t (1 : Fin 2) * 128 + 1 * q.val = q.val; omega

/-- An entry of the sum of two arrays and a bias depends only on the two arrays' entries at that place. -/
theorem sumBias_entry {R R' : Nat} (a r : Mat R 128) (A B : Mat R' 128) (b : Row 128) (p : Fin R) (p' : Fin R')
    (k : Fin 128) (ha : A (ix2 p' k) = a (ix2 p k)) (hr : B (ix2 p' k) = r (ix2 p k)) :
    sumBias A B b (ix2 p' k) = sumBias a r b (ix2 p k) := by
  show (A (ix2 p' k) + B (ix2 p' k)) + b (ix1 k) = (a (ix2 p k) + r (ix2 p k)) + b (ix1 k)
  rw [ha, hr]

/-- Row p of the sum of the blocks at point t is row 5000·t + p of the sum of the whole arrays. -/
theorem sum_row (c : Dev nD) (t : Fin cfg1.N) (p : Fin 5000) (P : Fin 100000) (hP : P.val = 5000 * t.val + p.val)
    (k : Fin 128) :
    sumBias (R := 5000) (ablk V c t) (rblk V c t) (V c main_arg3) (ix2 p k)
      = sumBias (R := 100000) (V c main_v48) (V c main_v35) (V c main_arg3) (ix2 P k) :=
  sumBias_entry (V c main_v48) (V c main_v35) (ablk V c t) (rblk V c t) (V c main_arg3) P p k
    (ablk_apply V c t p k P hP) (rblk_apply V c t p k P hP)

/-- The body's function of the blocks at point t, at an entry of the block, is the normalisation of the WHOLE
    arrays' sum at that entry's place in the result array: a normalised row depends only on that row of the sum. -/
theorem block_entry (c : Dev nD) (t : Fin cfg1.N) (y : S5000x128.Idx) :
    normRows (R := 5000) (sumBias (ablk V c t) (rblk V c t) (bblk V c t)) (gblk V c t) (sblk V c t) y
      = normRows (R := 100000) (sumBias (V c main_v48) (V c main_v35) (V c main_arg3)) (V c main_arg6) (V c main_arg7)
          (((cfg1.win 5).blk t).view.emb y) := by
  obtain ⟨p, q, rfl⟩ : ∃ (p : Fin 5000) (q : Fin 128), y = ix2 p q := ⟨y 0, y 1, eq_ix2 y⟩
  have ht := point_lt t
  rw [bblk_eq, gblk_eq, sblk_eq]
  refine Eq.trans ?_ (congrArg (normRows (R := 100000) (sumBias (V c main_v48) (V c main_v35) (V c main_arg3))
      (V c main_arg6) (V c main_arg7))
    (out_emb t p q ⟨5000 * t.val + p.val, by have := p.isLt; omega⟩ rfl)).symm
  exact normRows_row (sumBias (R := 100000) (V c main_v48) (V c main_v35) (V c main_arg3))
    (sumBias (R := 5000) (ablk V c t) (rblk V c t) (V c main_arg3)) (V c main_arg6) (V c main_arg7) _ p q
    (fun k => sum_row V c t p _ rfl k)

/-- WHAT POINT t WRITES BACK is block t of the normalisation of the whole arrays' sum. -/
theorem flushed_eq (c : Dev nD) (t : Fin cfg1.N) :
    (dat1 (F := Ideal) V c).flushed 5 t = ((cfg1.win 5).blk t).view.read (Elt Ideal)
      (normRows (R := 100000) (sumBias (V c main_v48) (V c main_v35) (V c main_arg3)) (V c main_arg6) (V c main_arg7)) := by
  show (cfg1.win 5).cut (grid1.coords t) ((dat1 V c).after 5 t) = _
  rw [after1_5]
  unfold out1_5
  rw [View.canon_unit_zero hz]
  simp only [View.ld_unit_zero (S := S5000x128) hz, View.ld_unit_zero (S := S128) hz1]
  rw [NormBody.body1_eq]
  funext y
  exact block_entry V c t y

/-- An index of the result array is in point t's block iff each coordinate is in the block's range on its axis. -/
theorem mem_blk (t : Fin cfg1.N) (i : S100000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v49).slice (win1_5.rect t)).set ↔ _
  rw [View.set_slice_whole, Rect.mem_set_unit]
  exact Iff.rfl

/-- Every index of the result array is in the block of the point its row falls in: row r belongs to point r / 5000. -/
theorem cover (i : S100000x128.Idx) :
    ∃ t : Fin cfg1.N, (cfg1.win 5).flush t = true ∧ i ∈ ((cfg1.win 5).blk t).view.set := by
  have hN : cfg1.N = 20 := N_1
  have hi0 : (i 0).val < 100000 := (i 0).isLt
  have hi1 : (i 1).val < 128 := (i 1).isLt
  obtain ⟨t, ht⟩ : ∃ t : Fin cfg1.N, t.val = (i 0).val / 5000 := ⟨⟨(i 0).val / 5000, by omega⟩, rfl⟩
  obtain ⟨-, -, -, -, -, -, -, e0, e1⟩ := idx_facts t
  refine ⟨t, flush1_5 t, ?_⟩
  rw [mem_blk]
  intro a
  match a with
  | ⟨0, _⟩ =>
    show win1_5.index t (0 : Fin 2) * 5000 ≤ (i 0).val ∧ (i 0).val < win1_5.index t (0 : Fin 2) * 5000 + 5000
    omega
  | ⟨1, _⟩ =>
    show win1_5.index t (1 : Fin 2) * 128 ≤ (i 1).val ∧ (i 1).val < win1_5.index t (1 : Fin 2) * 128 + 128
    omega

theorem arr1 (c : Dev nD) :
    (dat1 (F := Ideal) V c).arrAt 5 cfg1.N
      = normRows (R := 100000) (sumBias (V c main_v48) (V c main_v35) (V c main_arg3)) (V c main_arg6) (V c main_arg7) :=
  (dat1 (F := Ideal) V c).arrAt_eq_of_cover 5 _ (fun t _ => flushed_eq V c t) cover

end Cert.KernelIdeal.NormArray

end
-- ==== Proof.KernelFold.lean ====
/- What the kernel program's buffers hold at each boundary of its run, read back to the arguments.

   The run is a fold: three stretches of host operations, the first call, a fourth stretch, the second call. Read
   backwards from the result array: the second call leaves the row normalisation of (agg + residual) + b; the fourth
   stretch made agg — the shared gather–scale–scatter chain — from the left half of the first call's array, and the
   residual from its right half; the first call left x times [W | Wl] plus [0 | bl]; and the edge list, the
   coefficients, the joined weights and the joined bias are the first three stretches' work on the arguments. The edge
   list and the coefficients are, operation for operation, the reference program's own stages of the same argument. -/
import proofs.«125982_j18399639896341_1_alg».proof.Proof.Gen.KernelIdeal.Frame
import proofs.«125982_j18399639896341_1_alg».proof.Proof.RefAgg
import proofs.«125982_j18399639896341_1_alg».proof.Proof.Spec
import proofs.«125982_j18399639896341_1_alg».proof.Proof.MatmulArray
import proofs.«125982_j18399639896341_1_alg».proof.Proof.NormArray
import Idealize.ShloMosaic.Lib.StableHlo.Run

set_option maxRecDepth 16384

noncomputable section

namespace Cert.KernelIdeal.Fold

open Cert.KernelIdeal Cert.KernelIdeal.Gen Cert.GcnNorm
open Idealize.ShloMosaic Idealize.ShloMosaic.TcCoe Idealize.SL.Sem Idealize.ShloMosaic.StableHlo

section AnyFloats

variable {F : FTy → Type} [FloatOps F]
variable (m : (ℓ : Loc nD τ sig) → Buf (Elt F) ℓ) (ρ : Dev nD → PrngReg)

/-! ## Before the first call: the edge list, the coefficients, the joined weights and bias -/

set_option maxHeartbeats 2000000 in
/-- The source indices (the edge list's first row, then every node once) are the reference's stage of the same argument. -/
theorem src_eq (c : Dev nD) :
    W3 m ρ c (Proc.devRef .tc main_v3) = Cert.ReferenceIdeal.PRead.val_main_v3 (F := F) (m ((c : Thread nD τ).loc main_arg1)) := by
  show StableHlo.after hostOps0_2 (StableHlo.after hostOps0_1 (StableHlo.after hostOps0 (W0 m ρ c))) (Proc.devRef .tc main_v3) = _
  simp only [hostOps0, hostOps0_1, hostOps0_2]
  after_results_simp
  rfl

set_option maxHeartbeats 2000000 in
/-- The destination indices likewise. -/
theorem dst_eq (c : Dev nD) :
    W3 m ρ c (Proc.devRef .tc main_v6) = Cert.ReferenceIdeal.PRead.val_main_v6 (F := F) (m ((c : Thread nD τ).loc main_arg1)) := by
  show StableHlo.after hostOps0_2 (StableHlo.after hostOps0_1 (StableHlo.after hostOps0 (W0 m ρ c))) (Proc.devRef .tc main_v6) = _
  simp only [hostOps0, hostOps0_1, hostOps0_2]
  after_results_simp
  rfl

set_option maxHeartbeats 4000000 in
/-- The per-edge coefficients (the inverse square roots of the two endpoints' degrees, multiplied) likewise: the same
    operations in the same order on the same argument. -/
theorem coef_eq (c : Dev nD) :
    W3 m ρ c (Proc.devRef .tc main_v29) = Cert.ReferenceIdeal.PRead.val_main_v29 (F := F) (m ((c : Thread nD τ).loc main_arg1)) := by
  show StableHlo.after hostOps0_2 (StableHlo.after hostOps0_1 (StableHlo.after hostOps0 (W0 m ρ c))) (Proc.devRef .tc main_v29) = _
  simp only [hostOps0, hostOps0_1, hostOps0_2]
  after_results_simp
  simp only [TRef.ofBuf, TRef.toBuf, cast_eq]
  rfl

set_option maxHeartbeats 2000000 in
/-- The node features reach the first call as launched. -/
theorem x_kept (c : Dev nD) : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  simp only [hostOps0, hostOps0_1, hostOps0_2]
  after_results_simp

set_option maxHeartbeats 2000000 in
/-- The first call's weights: W and Wl side by side. -/
theorem wcat_eq (c : Dev nD) :
    W3 m ρ c (Proc.devRef .tc main_v30)
      = concatenate S128x256 1 [⟨S128x128, m ((c : Thread nD τ).loc main_arg2)⟩, ⟨S128x128, m ((c : Thread nD τ).loc main_arg4)⟩]
          concatenates_S128x128_S128x128_S128x256_d1 := by
  show StableHlo.after hostOps0_2 (StableHlo.after hostOps0_1 (StableHlo.after hostOps0 (W0 m ρ c))) (Proc.devRef .tc main_v30) = _
  simp only [hostOps0, hostOps0_1, hostOps0_2]
  after_results_simp
  rfl

set_option maxHeartbeats 2000000 in
/-- The first call's bias: 128 zeros, then bl. -/
theorem bcat_eq (c : Dev nD) :
    W3 m ρ c (Proc.devRef .tc main_v32)
      = concatenate S256 0 [⟨S128, broadcastInDim S128 ![] bcast_S_S128 (constant (F := F) S_ .f32 0x00000000#32)⟩,
          ⟨S128, m ((c : Thread nD τ).loc main_arg5)⟩] concatenates_S128_S128_S256_d0 := by
  show StableHlo.after hostOps0_2 (StableHlo.after hostOps0_1 (StableHlo.after hostOps0 (W0 m ρ c))) (Proc.devRef .tc main_v32) = _
  simp only [hostOps0, hostOps0_1, hostOps0_2]
  after_results_simp
  rfl

/-! ## Between the calls -/

set_option maxHeartbeats 2000000 in
/-- The aggregated messages the second call reads: the shared chain over the edge list and coefficients as the first
    call's entry found them (the first call writes none of them) and the LEFT half of the first call's array. -/
theorem agg_eq (c : Dev nD) :
    W5 m ρ c (Proc.devRef .tc main_v48)
      = Cert.ReferenceIdeal.Agg.aggOf (F := F) (W3 m ρ c (Proc.devRef .tc main_v3)) (W3 m ρ c (Proc.devRef .tc main_v6))
          (W3 m ρ c (Proc.devRef .tc main_v29))
          (extractStridedSlice S100000x128 ![0, 0] (W4 m ρ c (Proc.devRef .tc main_v33)) slices_S100000x256_S100000x128_0_0) := by
  rw [← W4_of_ne m ρ c main_v3 (by decide), ← W4_of_ne m ρ c main_v6 (by decide), ← W4_of_ne m ρ c main_v29 (by decide)]
  show StableHlo.after hostOps1 (W4 m ρ c) (Proc.devRef .tc main_v48) = _
  simp only [hostOps1]
  after_results_simp
  rfl

set_option maxHeartbeats 2000000 in
/-- The residual the second call reads: the RIGHT half of the first call's array. -/
theorem res_eq (c : Dev nD) :
    W5 m ρ c (Proc.devRef .tc main_v35)
      = extractStridedSlice S100000x128 ![0, 128] (W4 m ρ c (Proc.devRef .tc main_v33)) slices_S100000x256_S100000x128_0_128 := by
  show StableHlo.after hostOps1 (W4 m ρ c) (Proc.devRef .tc main_v35) = _
  simp only [hostOps1]
  after_results_simp

set_option maxHeartbeats 2000000 in
/-- The three vectors the second call reads reach it as launched. -/
theorem vec_kept (c : Dev nD) :
    W5 m ρ c (Proc.devRef .tc main_arg3) = m ((c : Thread nD τ).loc main_arg3)
    ∧ W5 m ρ c (Proc.devRef .tc main_arg6) = m ((c : Thread nD τ).loc main_arg6)
    ∧ W5 m ρ c (Proc.devRef .tc main_arg7) = m ((c : Thread nD τ).loc main_arg7) := by
  refine ⟨?_, ?_, ?_⟩
  · show StableHlo.after hostOps1 (W4 m ρ c) (Proc.devRef .tc main_arg3) = _
    simp only [hostOps1]
    after_results_simp
    rw [W4_of_ne m ρ c main_arg3 (by decide)]
    show StableHlo.after hostOps0_2 (StableHlo.after hostOps0_1 (StableHlo.after hostOps0 (W0 m ρ c))) (Proc.devRef .tc main_arg3) = _
    simp only [hostOps0, hostOps0_1, hostOps0_2]
    after_results_simp
  · show StableHlo.after hostOps1 (W4 m ρ c) (Proc.devRef .tc main_arg6) = _
    simp only [hostOps1]
    after_results_simp
    rw [W4_of_ne m ρ c main_arg6 (by decide)]
    show StableHlo.after hostOps0_2 (StableHlo.after hostOps0_1 (StableHlo.after hostOps0 (W0 m ρ c))) (Proc.devRef .tc main_arg6) = _
    simp only [hostOps0, hostOps0_1, hostOps0_2]
    after_results_simp
  · show StableHlo.after hostOps1 (W4 m ρ c) (Proc.devRef .tc main_arg7) = _
    simp only [hostOps1]
    after_results_simp
    rw [W4_of_ne m ρ c main_arg7 (by decide)]
    show StableHlo.after hostOps0_2 (StableHlo.after hostOps0_1 (StableHlo.after hostOps0 (W0 m ρ c))) (Proc.devRef .tc main_arg7) = _
    simp only [hostOps0, hostOps0_1, hostOps0_2]
    after_results_simp

end AnyFloats

/-! ## On the extended reals: the two calls' arrays, and the result -/

section Reals

variable (m : (ℓ : Loc nD τ sig) → Buf (Elt Ideal) ℓ) (ρ : Dev nD → PrngReg)

/-- The array the first call leaves: x · [W | Wl] + [0 | bl]. -/
def firstCall (c : Dev nD) : Mat 100000 256 :=
  prodBias (R := 100000) (N := 256) (m ((c : Thread nD τ).loc main_arg0))
    (concatenate S128x256 1 [⟨S128x128, m ((c : Thread nD τ).loc main_arg2)⟩, ⟨S128x128, m ((c : Thread nD τ).loc main_arg4)⟩]
      concatenates_S128x128_S128x128_S128x256_d1)
    (concatenate S256 0 [⟨S128, broadcastInDim S128 ![] bcast_S_S128 (constant (F := Ideal) S_ .f32 0x00000000#32)⟩,
      ⟨S128, m ((c : Thread nD τ).loc main_arg5)⟩] concatenates_S128_S128_S256_d0)

/-- After the first call its output array holds `firstCall`: the blocks its 20 points wrote, as one array, of the
    arrays its entry found. -/
theorem firstCall_eq (c : Dev nD) : W4 m ρ c (Proc.devRef .tc main_v33) = firstCall m c := by
  refine (W4_arr m ρ c 3).trans ?_
  refine (Cert.KernelIdeal.MatmulArray.arr0 (V3 m ρ) c).trans ?_
  unfold firstCall
  have e0 : V3 m ρ c main_arg0 = m ((c : Thread nD τ).loc main_arg0) := x_kept m ρ c
  have e1 : V3 m ρ c main_v30 = _ := wcat_eq m ρ c
  have e2 : V3 m ρ c main_v32 = _ := bcat_eq m ρ c
  rw [e0, e1, e2]

/-- THE KERNEL'S RESULT: the row normalisation, with scale gamma and shift beta, of
    (agg + residual) + b, where agg is the shared chain over the reference's own edge stages and the left half of
    `firstCall`, and the residual is its right half. -/
theorem result_eq (c : Dev nD) :
    W6 m ρ c (Proc.devRef .tc main_v49)
      = normRows (R := 100000)
          (sumBias
            (Cert.ReferenceIdeal.Agg.aggOf (F := Ideal)
              (Cert.ReferenceIdeal.PRead.val_main_v3 (F := Ideal) (m ((c : Thread nD τ).loc main_arg1)))
              (Cert.ReferenceIdeal.PRead.val_main_v6 (F := Ideal) (m ((c : Thread nD τ).loc main_arg1)))
              (Cert.ReferenceIdeal.PRead.val_main_v29 (F := Ideal) (m ((c : Thread nD τ).loc main_arg1)))
              (extractStridedSlice S100000x128 ![0, 0] (firstCall m c) slices_S100000x256_S100000x128_0_0))
            (extractStridedSlice S100000x128 ![0, 128] (firstCall m c) slices_S100000x256_S100000x128_0_128)
            (m ((c : Thread nD τ).loc main_arg3)))
          (m ((c : Thread nD τ).loc main_arg6)) (m ((c : Thread nD τ).loc main_arg7)) := by
  refine (W6_arr m ρ c 5).trans ?_
  refine (Cert.KernelIdeal.NormArray.arr1 (V5 m ρ) c).trans ?_
  obtain ⟨k3, k6, k7⟩ := vec_kept m ρ c
  have e0 : V5 m ρ c main_v48 = _ := agg_eq m ρ c
  have e1 : V5 m ρ c main_v35 = _ := res_eq m ρ c
  have e3 : V5 m ρ c main_arg3 = m ((c : Thread nD τ).loc main_arg3) := k3
  have e6 : V5 m ρ c main_arg6 = m ((c : Thread nD τ).loc main_arg6) := k6
  have e7 : V5 m ρ c main_arg7 = m ((c : Thread nD τ).loc main_arg7) := k7
  rw [e0, e1, e3, e6, e7, src_eq m ρ c, dst_eq m ρ c, coef_eq m ρ c, firstCall_eq m ρ c]

end Reals

end Cert.KernelIdeal.Fold

end
-- ==== Proof.RefStages.lean ====
/- The reference program's stages, read as the specification's functions on the extended reals.

   x · W and x · Wl are sums over the contracted coordinate; the pre-normalisation array is
   (agg + b) + (x · Wl + bl) entry by entry, with the aggregated messages agg left as they are; and the last stage is
   the row normalisation of that array: its row sums over 128 columns divided by 128 are the row's mean and variance,
   the host's inverse square root is the same function as the kernel's, and the scale and shift vectors are spread over
   the rows. Each stage is read at an index from its operands at an index, and the index maps of the layout stages
   are identified once, at explicit coordinates. -/
import proofs.«125982_j18399639896341_1_alg».proof.Proof.RefReadPatched
import proofs.«125982_j18399639896341_1_alg».proof.Proof.Spec
import proofs.«125982_j18399639896341_1_alg».proof.Proof.LibDotPlain
import Idealize.ShloMosaic.Lib.Pipeline.Value
import Idealize.ShloMosaic.Lib.ValueIdx
import Idealize.ShloMosaic.PureOps.Ideal.Laws

noncomputable section

namespace Cert.ReferenceIdeal.Stages

open Cert.ReferenceIdeal Cert.ReferenceIdeal.PRead Cert.GcnNorm
open Idealize.ShloMosaic Idealize.ShloMosaic.ValueIdx

/-! ## The reference's index maps at explicit coordinates

Each layout stage of the reference reads its operand at an index computed from the result's index. At a result index
given by its coordinates these are the plain coordinate indices: the row (p, ·), the column (·, q), the keep-dims
column (p, 0). -/

section indices

variable (p : Fin 100000) (q k : Fin 128)

/-- The first product reads the left operand along row p. -/
theorem lidx30_at : lidx_main_v30 (ix2 p q) k = ix2 p k := funext fun a => Fin.ext (by match a with | ⟨0, _⟩ => rfl | ⟨1, _⟩ => rfl)
/-- The first product reads the right operand along column q. -/
theorem ridx30_at : ridx_main_v30 (ix2 p q) k = ix2 k q := funext fun a => Fin.ext (by match a with | ⟨0, _⟩ => rfl | ⟨1, _⟩ => rfl)
/-- The second product reads the left operand along row p. -/
theorem lidx47_at : lidx_main_v47 (ix2 p q) k = ix2 p k := funext fun a => Fin.ext (by match a with | ⟨0, _⟩ => rfl | ⟨1, _⟩ => rfl)
/-- The second product reads the right operand along column q. -/
theorem ridx47_at : ridx_main_v47 (ix2 p q) k = ix2 k q := funext fun a => Fin.ext (by match a with | ⟨0, _⟩ => rfl | ⟨1, _⟩ => rfl)

/-- A vector broadcast along the rows is read at the column coordinate (the first bias). -/
theorem bias3_at : idx_main_v44 (idx_main_v45 (ix2 p q)) = ix1 q := funext fun a => Fin.ext (by match a with | ⟨0, _⟩ => rfl)
/-- Likewise the second bias. -/
theorem bias5_at : idx_main_v48 (idx_main_v49 (ix2 p q)) = ix1 q := funext fun a => Fin.ext (by match a with | ⟨0, _⟩ => rfl)
/-- Likewise the scale. -/
theorem scale_at : idx_main_v70 (idx_main_v71 (ix2 p q)) = ix1 q := funext fun a => Fin.ext (by match a with | ⟨0, _⟩ => rfl)
/-- Likewise the shift. -/
theorem shift_at : idx_main_v73 (idx_main_v74 (ix2 p q)) = ix1 q := funext fun a => Fin.ext (by match a with | ⟨0, _⟩ => rfl)

/-- A keep-dims column broadcast along the columns is read at (p, 0): the mean inside the squared deviations. -/
theorem col56_at : idx_main_v56 (ix2 p q) = ix2 p (0 : Fin 1) := funext fun a => Fin.ext (by match a with | ⟨0, _⟩ => rfl | ⟨1, _⟩ => rfl)
/-- Likewise the mean inside the result. -/
theorem col63_at : idx_main_v63 (ix2 p q) = ix2 p (0 : Fin 1) := funext fun a => Fin.ext (by match a with | ⟨0, _⟩ => rfl | ⟨1, _⟩ => rfl)
/-- Likewise the inverse square root. -/
theorem col68_at : idx_main_v68 (ix2 p q) = ix2 p (0 : Fin 1) := funext fun a => Fin.ext (by match a with | ⟨0, _⟩ => rfl | ⟨1, _⟩ => rfl)

/-- The row sums, as a keep-dims column at (p, 0), read the summed array along row p. -/
theorem row52_at : idx_main_v52 (idx_main_v53 (ix2 p (0 : Fin 1))) k = ix2 p k := funext fun a => Fin.ext (by match a with | ⟨0, _⟩ => rfl | ⟨1, _⟩ => rfl)
/-- Likewise the sums of the squared deviations. -/
theorem row59_at : idx_main_v59 (idx_main_v60 (ix2 p (0 : Fin 1))) k = ix2 p k := funext fun a => Fin.ext (by match a with | ⟨0, _⟩ => rfl | ⟨1, _⟩ => rfl)

end indices

/-! ## The two matrix products -/

theorem xw_eq (x0 : (⟨S100000x128, .f32⟩ : BufTy).Contents (Elt Ideal)) (x2 : (⟨S128x128, .f32⟩ : BufTy).Contents (Elt Ideal)) :
    val_main_v30 (F := Ideal) x0 x2 = prod (R := 100000) (N := 128) x0 x2 := by
  funext i
  obtain ⟨p, q, rfl⟩ : ∃ (p : Fin 100000) (q : Fin 128), i = ix2 p q := ⟨i 0, i 1, eq_ix2 i⟩
  rw [val_main_v30_apply]
  simp only [lidx30_at, ridx30_at]
  rfl

theorem pre_eq (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal))
    (i : S100000x128.Idx) :
    val_main_v51 (F := Ideal) x0 x1 x2 x3 x4 x5 i
      = (val_main_v43 (F := Ideal) x0 x1 x2 i + x3 (ix1 (i 1))) + prodBias (R := 100000) (N := 128) x0 x4 x5 i := by
  obtain ⟨p, q, rfl⟩ : ∃ (p : Fin 100000) (q : Fin 128), i = ix2 p q := ⟨i 0, i 1, eq_ix2 i⟩
  rw [val_main_v51_apply, val_main_v46_apply, val_main_v50_apply, val_main_v45_apply, val_main_v44_apply,
    val_main_v49_apply, val_main_v48_apply, val_main_v47_apply]
  generalize val_main_v43 (F := Ideal) x0 x1 x2 = agg
  simp only [lidx47_at, ridx47_at, bias3_at, bias5_at, Ideal.addf_def]
  rfl

/-! ## The row normalisation

With h the array that is normalised, the reference computes per row p the mean (row sum over 128) and the variance
(row sum of the squared deviations over 128) as keep-dims columns, and from them the normalised entry. -/

section norm

variable (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal))

/-- The mean column at (p, 0) is the mean of row p. -/
theorem mean_at (p : Fin 100000) :
    val_main_v55 (F := Ideal) x0 x1 x2 x3 x4 x5 (ix2 p (0 : Fin 1)) = rowMean (fun k => val_main_v51 (F := Ideal) x0 x1 x2 x3 x4 x5 (ix2 p k)) := by
  rw [val_main_v55_apply, val_main_v53_apply, val_main_v52_apply, val_main_v54_apply, val_main_cst_9_apply,
    val_main_cst_10_apply]
  generalize val_main_v51 (F := Ideal) x0 x1 x2 x3 x4 x5 = h
  rw [Finset.sum_congr rfl fun k _ => congrArg h (row52_at p k)]
  rw [Ideal.hostDivf_def, Ideal.ofBits_def, Ideal.ofBits_def, Ideal.ofBits_zero_f32, zero_add]
  rfl

/-- The deviation of entry (p, k) from its row's mean. -/
theorem dev_at (p : Fin 100000) (k : Fin 128) :
    val_main_v57 (F := Ideal) x0 x1 x2 x3 x4 x5 (ix2 p k) = val_main_v51 (F := Ideal) x0 x1 x2 x3 x4 x5 (ix2 p k) - rowMean (fun k => val_main_v51 (F := Ideal) x0 x1 x2 x3 x4 x5 (ix2 p k)) := by
  rw [val_main_v57_apply, val_main_v56_apply, col56_at, mean_at]
  exact Ideal.subf_def _ _

/-- The squared deviation of entry (p, k). -/
theorem sq_at (p : Fin 100000) (k : Fin 128) :
    val_main_v58 (F := Ideal) x0 x1 x2 x3 x4 x5 (ix2 p k)
      = (val_main_v51 (F := Ideal) x0 x1 x2 x3 x4 x5 (ix2 p k) - rowMean (fun k => val_main_v51 (F := Ideal) x0 x1 x2 x3 x4 x5 (ix2 p k)))
        * (val_main_v51 (F := Ideal) x0 x1 x2 x3 x4 x5 (ix2 p k) - rowMean (fun k => val_main_v51 (F := Ideal) x0 x1 x2 x3 x4 x5 (ix2 p k))) := by
  rw [val_main_v58_apply, dev_at]
  exact Ideal.mulf_def _ _

/-- The variance column at (p, 0) is the variance of row p. -/
theorem var_at (p : Fin 100000) :
    val_main_v62 (F := Ideal) x0 x1 x2 x3 x4 x5 (ix2 p (0 : Fin 1)) = rowVar (fun k => val_main_v51 (F := Ideal) x0 x1 x2 x3 x4 x5 (ix2 p k)) := by
  rw [val_main_v62_apply, val_main_v60_apply, val_main_v59_apply, val_main_v61_apply, val_main_cst_11_apply,
    val_main_cst_12_apply]
  rw [Finset.sum_congr rfl fun k _ =>
    (congrArg (val_main_v58 (F := Ideal) x0 x1 x2 x3 x4 x5) (row59_at p k)).trans (sq_at x0 x1 x2 x3 x4 x5 p k)]
  generalize val_main_v51 (F := Ideal) x0 x1 x2 x3 x4 x5 = h
  rw [Ideal.hostDivf_def, Ideal.ofBits_def, Ideal.ofBits_def, Ideal.ofBits_zero_f32, zero_add]
  rfl

end norm

theorem out_eq (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128, .f32⟩ : BufTy).Contents (Elt Ideal)) (x7 : (⟨S128, .f32⟩ : BufTy).Contents (Elt Ideal)) :
    val_main_v75 (F := Ideal) x0 x1 x2 x3 x4 x5 x6 x7
      = normRows (R := 100000) (val_main_v51 (F := Ideal) x0 x1 x2 x3 x4 x5) x6 x7 := by
  funext i
  obtain ⟨p, q, rfl⟩ : ∃ (p : Fin 100000) (q : Fin 128), i = ix2 p q := ⟨i 0, i 1, eq_ix2 i⟩
  rw [val_main_v75_apply, val_main_v72_apply, val_main_v74_apply, val_main_v73_apply, val_main_v71_apply,
    val_main_v70_apply, val_main_v69_apply, val_main_v68_apply, val_main_v67_apply, val_main_v66_apply,
    val_main_v65_apply, val_main_cst_13_apply, val_main_v64_apply, val_main_v63_apply]
  rw [shift_at, scale_at, col68_at, col63_at, mean_at, var_at]
  generalize val_main_v51 (F := Ideal) x0 x1 x2 x3 x4 x5 = h
  simp only [Ideal.addf_def, Ideal.subf_def, Ideal.mulf_def, Ideal.hostUnary_rsqrt_def, Ideal.ofBits_def]
  rfl

end Cert.ReferenceIdeal.Stages

end
-- ==== Proof.Bridge.lean ====
/- The two programs' results are one function of the arguments.

   The kernel multiplies x by W and Wl side by side and adds the bias [0 | bl]; the left half of that array is
   x · W + 0 = x · W, which is what the reference feeds the shared aggregation chain, and the right half is
   x · Wl + bl, the reference's residual. The kernel then normalises the rows of (agg + residual) + b, the reference
   the rows of (agg + b) + residual: addition of extended reals is commutative and associative, so these are the
   same rows, and the normalisation is the same function of a row on both sides. -/
import proofs.«125982_j18399639896341_1_alg».proof.Proof.KernelFold
import proofs.«125982_j18399639896341_1_alg».proof.Proof.RefStages
import proofs.«125982_j18399639896341_1_alg».proof.Proof.RefAgg
import proofs.«125982_j18399639896341_1_alg».proof.Proof.Spec
import Idealize.ShloMosaic.Lib.Pipeline.Value
import Idealize.ShloMosaic.Lib.ValueIdx
import Idealize.ShloMosaic.PureOps.Ideal.Laws

noncomputable section

namespace Cert.Proof.Bridge

open Cert.KernelIdeal Cert.KernelIdeal.Gen Cert.GcnNorm
open Idealize.ShloMosaic Idealize.ShloMosaic.TcCoe Idealize.ShloMosaic.ValueIdx Idealize.SL.Sem

/-! ## The joined weights and the joined bias, read at an index -/

/-- W and Wl side by side. -/
abbrev wcat (w wl : Mat 128 128) : Mat 128 256 :=
  concatenate S128x256 1 [⟨S128x128, w⟩, ⟨S128x128, wl⟩] concatenates_S128x128_S128x128_S128x256_d1

/-- 128 zeros, then bl. -/
abbrev bcat (bl : Row 128) : Row 256 :=
  concatenate S256 0 [⟨S128, broadcastInDim S128 ![] bcast_S_S128 (constant (F := Ideal) S_ .f32 0x00000000#32)⟩, ⟨S128, bl⟩]
    concatenates_S128_S128_S256_d0

/-- A column of the left half of the joined weights is that column of W. -/
theorem wcat_left (w wl : Mat 128 128) (k q : Fin 128) :
    wcat w wl (ix2 k (⟨q.val, by have := q.isLt; omega⟩ : Fin 256)) = w (ix2 k q) :=
  concatenate_pair_apply_left (t := S128x256) (s₁ := S128x128) (s₂ := S128x128) (1 : Fin 2) w wl
    concatenates_S128x128_S128x128_S128x256_d1 (ix2 k (⟨q.val, by have := q.isLt; omega⟩ : Fin 256)) rfl (ix2 k q)
    (fun b => match b with | ⟨0, _⟩ => rfl | ⟨1, _⟩ => rfl)

/-- A column of the right half is that column of Wl. -/
theorem wcat_right (w wl : Mat 128 128) (k q : Fin 128) :
    wcat w wl (ix2 k (⟨q.val + 128, by have := q.isLt; omega⟩ : Fin 256)) = wl (ix2 k q) :=
  concatenate_pair_apply_right (t := S128x256) (s₁ := S128x128) (s₂ := S128x128) (1 : Fin 2) w wl
    concatenates_S128x128_S128x128_S128x256_d1 (ix2 k (⟨q.val + 128, by have := q.isLt; omega⟩ : Fin 256)) rfl rfl (ix2 k q)
    (fun b hb => match b, hb with | ⟨0, _⟩, _ => rfl | ⟨1, _⟩, hb => absurd rfl hb) rfl

/-- The left half of the joined bias is zero. -/
theorem bcat_left (bl : Row 128) (q : Fin 128) :
    bcat bl (ix1 (⟨q.val, by have := q.isLt; omega⟩ : Fin 256)) = 0 := by
  refine (concatenate_pair_apply_left (t := S256) (s₁ := S128) (s₂ := S128) (0 : Fin 1) _ bl
    concatenates_S128_S128_S256_d0 (ix1 (⟨q.val, by have := q.isLt; omega⟩ : Fin 256)) rfl (ix1 q)
    (fun b => match b with | ⟨0, _⟩ => rfl)).trans ?_
  exact Ideal.ofBits_zero_f32

/-- The right half of the joined bias is bl. -/
theorem bcat_right (bl : Row 128) (q : Fin 128) :
    bcat bl (ix1 (⟨q.val + 128, by have := q.isLt; omega⟩ : Fin 256)) = bl (ix1 q) :=
  concatenate_pair_apply_right (t := S256) (s₁ := S128) (s₂ := S128) (0 : Fin 1) _ bl
    concatenates_S128_S128_S256_d0 (ix1 (⟨q.val + 128, by have := q.isLt; omega⟩ : Fin 256)) rfl rfl (ix1 q)
    (fun b hb => match b, hb with | ⟨0, _⟩, hb => absurd rfl hb) rfl

/-! ## The two halves of the first call's array -/

/-- The left half of x · [W | Wl] + [0 | bl] is x · W. -/
theorem left_half (x : Mat 100000 128) (w wl : Mat 128 128) (bl : Row 128) :
    extractStridedSlice S100000x128 ![0, 0] (prodBias (R := 100000) (N := 256) x (wcat w wl) (bcat bl))
        slices_S100000x256_S100000x128_0_0
      = prod (R := 100000) (N := 128) x w := by
  funext i
  obtain ⟨p, q, rfl⟩ : ∃ (p : Fin 100000) (q : Fin 128), i = ix2 p q := ⟨i 0, i 1, eq_ix2 i⟩
  refine (extractStridedSlice_apply ![0, 0] _ slices_S100000x256_S100000x128_0_0 (ix2 p q)
    (ix2 p (⟨q.val, by have := q.isLt; omega⟩ : Fin 256))
    (fun a => match a with
      | ⟨0, _⟩ => by show p.val = 0 + p.val; omega
      | ⟨1, _⟩ => by show q.val = 0 + q.val; omega)).trans ?_
  show (∑ k : Fin 128, x (ix2 p k) * wcat w wl (ix2 k (⟨q.val, _⟩ : Fin 256))) + bcat bl (ix1 (⟨q.val, _⟩ : Fin 256))
    = ∑ k : Fin 128, x (ix2 p k) * w (ix2 k q)
  rw [bcat_left, add_zero]
  exact Finset.sum_congr rfl fun k _ => by rw [wcat_left]

/-- The right half is x · Wl + bl. -/
theorem right_half (x : Mat 100000 128) (w wl : Mat 128 128) (bl : Row 128) :
    extractStridedSlice S100000x128 ![0, 128] (prodBias (R := 100000) (N := 256) x (wcat w wl) (bcat bl))
        slices_S100000x256_S100000x128_0_128
      = prodBias (R := 100000) (N := 128) x wl bl := by
  funext i
  obtain ⟨p, q, rfl⟩ : ∃ (p : Fin 100000) (q : Fin 128), i = ix2 p q := ⟨i 0, i 1, eq_ix2 i⟩
  refine (extractStridedSlice_apply ![0, 128] _ slices_S100000x256_S100000x128_0_128 (ix2 p q)
    (ix2 p (⟨q.val + 128, by have := q.isLt; omega⟩ : Fin 256))
    (fun a => match a with
      | ⟨0, _⟩ => by show p.val = 0 + p.val; omega
      | ⟨1, _⟩ => by show q.val + 128 = 128 + q.val; omega)).trans ?_
  show (∑ k : Fin 128, x (ix2 p k) * wcat w wl (ix2 k (⟨q.val + 128, _⟩ : Fin 256))) + bcat bl (ix1 (⟨q.val + 128, _⟩ : Fin 256))
    = (∑ k : Fin 128, x (ix2 p k) * wl (ix2 k q)) + bl (ix1 q)
  rw [bcat_right]
  exact congrArg (· + bl (ix1 q)) (Finset.sum_congr rfl fun k _ => by rw [wcat_right])

/-! ## The two results -/

section Results

open Cert.ReferenceIdeal.PRead

/-- The kernel's result, as the run's fold reads it, is the reference's last stage of the same arguments: the left
    half feeds the shared chain what the reference feeds it, and (agg + r) + b = (agg + b) + r row by row. -/
theorem results_eq (x0 : Mat 100000 128) (x1 : (⟨Cert.ReferenceIdeal.S2x1600000, .i32⟩ : BufTy).Contents (Elt Ideal))
    (w : Mat 128 128) (b : Row 128) (wl : Mat 128 128) (bl g be : Row 128) :
    normRows (R := 100000)
        (sumBias
          (Cert.ReferenceIdeal.Agg.aggOf (F := Ideal) (val_main_v3 (F := Ideal) x1) (val_main_v6 (F := Ideal) x1)
            (val_main_v29 (F := Ideal) x1)
            (extractStridedSlice S100000x128 ![0, 0] (prodBias (R := 100000) (N := 256) x0 (wcat w wl) (bcat bl))
              slices_S100000x256_S100000x128_0_0))
          (extractStridedSlice S100000x128 ![0, 128] (prodBias (R := 100000) (N := 256) x0 (wcat w wl) (bcat bl))
            slices_S100000x256_S100000x128_0_128)
          b) g be
      = val_main_v75 (F := Ideal) x0 x1 w b wl bl g be := by
  rw [left_half, right_half, Cert.ReferenceIdeal.Stages.out_eq]
  refine congrArg (fun h => normRows (R := 100000) h g be) ?_
  funext i
  rw [Cert.ReferenceIdeal.Stages.pre_eq, Cert.ReferenceIdeal.Agg.v43_eq, Cert.ReferenceIdeal.Stages.xw_eq]
  exact add_right_comm _ _ _

end Results

/-- The kernel program's result array, at the end of its run, holds the reference's last stage of the kernel's own
    arguments. -/
theorem final (m : (ℓ : Loc nD τ sig) → Buf (Elt Ideal) ℓ) (ρ : Dev nD → PrngReg) (c : Dev nD) :
    W6 m ρ c (Proc.devRef .tc main_v49)
      = Cert.ReferenceIdeal.PRead.val_main_v75 (F := Ideal) (m ((c : Thread nD τ).loc main_arg0))
          (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6))
          (m ((c : Thread nD τ).loc main_arg7)) := by
  refine (Cert.KernelIdeal.Fold.result_eq m ρ c).trans ?_
  unfold Cert.KernelIdeal.Fold.firstCall
  exact results_eq _ _ _ _ _ _ _ _

end Cert.Proof.Bridge

end
-- ==== Proof.lean ====
/- The certificate of a graph-convolution layer with a row normalisation: a kernel program of two tiled calls
   (x · [W | Wl] + [0 | bl] over blocks of 5000 rows; the row normalisation of (agg + residual) + b over the same
   blocks) against a plain reference that computes x · W, aggregates, adds b and x · Wl + bl, and normalises.

   The three frames: the two kernel programs' by their launch over the run's segments; the reference's by its run.
   The idealisation rewrote nothing. On the extended reals both programs end with the same array: the kernel's run
   is read back boundary by boundary to the arguments (KernelFold), each call's blocks as one array (MatmulArray,
   NormArray over MatmulBody, NormBody), the reference's stages as the same functions (RefStages), the gather–scale–
   scatter chain carried unopened on both sides (RefAgg), and the two arrangements joined by the commutativity and
   associativity of addition (Bridge). No finiteness is used: the precondition is never opened. -/
import proofs.«125982_j18399639896341_1_alg».proof.Defs
import proofs.«125982_j18399639896341_1_alg».proof.Proof.Gen.Kernel
import proofs.«125982_j18399639896341_1_alg».proof.Proof.Gen.Kernel.Frame
import proofs.«125982_j18399639896341_1_alg».proof.Proof.Gen.KernelIdeal
import proofs.«125982_j18399639896341_1_alg».proof.Proof.Gen.KernelIdeal.Frame
import proofs.«125982_j18399639896341_1_alg».proof.Proof.Gen.ReferenceIdeal
import proofs.«125982_j18399639896341_1_alg».proof.Proof.Gen.Pre_finite_inputs
import proofs.«125982_j18399639896341_1_alg».proof.Proof.KernelRun
import proofs.«125982_j18399639896341_1_alg».proof.Proof.RefRunPatched
import proofs.«125982_j18399639896341_1_alg».proof.Proof.RefReadPatched
import proofs.«125982_j18399639896341_1_alg».proof.Proof.Bridge
import Idealize.ShloMosaic.Adequacy
import Idealize.ShloMosaic.Init

noncomputable section

namespace Cert.Proof

open Idealize.ShloMosaic Idealize.ShloMosaic.TcCoe Idealize.SL.Sem

namespace Claims

/-- The kernel program as printed runs and keeps its arguments. -/
theorem frame_k : Cert.frame_Kernel (hKernel := Cert.Kernel.Gen.facts) (hPre_finite_inputs := Cert.Pre_finite_inputs.Gen.facts) :=
  fun m ρ _ => Cert.Kernel.Gen.frame m ρ

/-- So does its reading on the extended reals. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference runs and keeps its arguments: its run, with the result's line dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2)
    (Cert.ReferenceIdeal.PValue.run (F := Ideal) m ρ)

/-- From memories that agree on the arguments both programs end with the same result array: the kernel's, read back
    through its run, is the reference's last stage of the kernel's arguments (`Bridge.final`), and the reference's run
    ends at that stage of its own, equal, arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.NamedRun.run_named (F := Ideal) m ρ, ?_⟩
  refine (θ_run Cert.ReferenceIdeal.defs _ _).mono (fun _ h c => ⟨(h c).1.trans ?_, (h c).2⟩)
    (Cert.ReferenceIdeal.PValue.run (F := Ideal) m' ρ')
  obtain ⟨a0, a1, a2, a3, a4, a5, a6, a7⟩ := hagree c
  rw [Cert.ReferenceIdeal.PRead.val_main_v75_eq, a0, a1, a2, a3, a4, a5, a6, a7]
  exact (Cert.Proof.Bridge.final m ρ c).symm

end Claims

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, trivial, Claims.algebraic⟩

end Cert.Proof

end
